-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x256 : Shape := ⟨2, ![64, 256]⟩
abbrev S32x3x768 : Shape := ⟨3, ![32, 3, 768]⟩
abbrev S32x3 : Shape := ⟨2, ![32, 3]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S32x3x768 : S_.BroadcastsInDim S32x3x768 (![] : Fin 0 → Fin S32x3x768.rank)
  reducesTo_S32x3x768_S_d0_1_2 : S32x3x768.ReducesTo [0, 1, 2] S_
  bcast_S_S32x3 : S_.BroadcastsInDim S32x3 (![] : Fin 0 → Fin S32x3.rank)
  reducesTo_S32x3_S_d0_1 : S32x3.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg1 : IVec S64x256 32) (main_v13 : IVec S_ 1) (main_v15 : IVec S64x256 1) (main_c_5 : IVec S_ 32) : IVec S_ 1 :=
  let main_v16 : IVec S64x256 32 := broadcastInDim S64x256 ![] bcast_S_S64x256 main_c_5
  let main_v17 : IVec S64x256 1 := cmpi .slt main_arg1 main_v16
  let main_v18 : IVec S64x256 1 := andi main_v15 main_v17
  let main_c_6 : IVec S_ 1 := constantI S_ 1 1#1
  let main_v19 : IVec S_ 1 := (fun x v => Host.reduce IntOp.andi x v reducesTo_S64x256_S_d0_1 h_S_) main_v18 main_c_6
  let main_v20 : IVec S_ 1 := andi main_v13 main_v19
  main_v20

def fn {F : FTy → Type} [FloatOps F] (main_arg0 : FVec F S64x512x768 .f32) (main_arg1 : IVec S64x256 32) (main_arg2 : FVec F S32x3x768 .f32) (main_arg3 : FVec F S32x3 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S32x3x768 .f32 := Host.absf main_arg2
  let main_cst_0 : FVec F S_ .f32 := constant S_ .f32 0x7F800000#32
  let main_v5 : FVec F S32x3x768 .f32 := broadcastInDim S32x3x768 ![] bcast_S_S32x3x768 main_cst_0
  let main_v6 : IVec S32x3x768 1 := cmpf .olt main_v4 main_v5
  let main_c_1 : IVec S_ 1 := constantI S_ 1 1#1
  let main_v7 : IVec S_ 1 := (fun x v => Host.reduce IntOp.andi x v reducesTo_S32x3x768_S_d0_1_2 h_S_) main_v6 main_c_1
  let main_v8 : IVec S_ 1 := andi main_v3 main_v7
  let main_v9 : FVec F S32x3 .f32 := Host.absf main_arg3
  let main_cst_2 : FVec F S_ .f32 := constant S_ .f32 0x7F800000#32
  let main_v10 : FVec F S32x3 .f32 := broadcastInDim S32x3 ![] bcast_S_S32x3 main_cst_2
  let main_v11 : IVec S32x3 1 := cmpf .olt main_v9 main_v10
  let main_c_3 : IVec S_ 1 := constantI S_ 1 1#1
  let main_v12 : IVec S_ 1 := (fun x v => Host.reduce IntOp.andi x v reducesTo_S32x3_S_d0_1 h_S_) main_v11 main_c_3
  let main_v13 : IVec S_ 1 := andi main_v8 main_v12
  let main_c_4 : IVec S_ 32 := constantI S_ 32 0#32
  let main_v14 : IVec S64x256 32 := broadcastInDim S64x256 ![] bcast_S_S64x256 main_c_4
  let main_v15 : IVec S64x256 1 := cmpi .sge main_arg1 main_v14
  let main_c_5 : IVec S_ 32 := constantI S_ 32 512#32
  fn_part1 (F := F) main_arg1 main_v13 main_v15 main_c_5
-- ==== Kernel.lean ====
abbrev S64x512x768 : Shape := ⟨3, ![64, 512, 768]⟩
abbrev S64x256 : Shape := ⟨2, ![64, 256]⟩
abbrev S32x3x768 : Shape := ⟨3, ![32, 3, 768]⟩
abbrev S32x3 : Shape := ⟨2, ![32, 3]⟩
abbrev S_ : Shape := ⟨0, ![]⟩
abbrev S64x256x1 : Shape := ⟨3, ![64, 256, 1]⟩
abbrev S96x768 : Shape := ⟨2, ![96, 768]⟩
abbrev S128x768 : Shape := ⟨2, ![128, 768]⟩
abbrev S1x96 : Shape := ⟨2, ![1, 96]⟩
abbrev S1x128 : Shape := ⟨2, ![1, 128]⟩
abbrev S64x256x128 : Shape := ⟨3, ![64, 256, 128]⟩
abbrev S8x256x1 : Shape := ⟨3, ![8, 256, 1]⟩
abbrev S8x512x768 : Shape := ⟨3, ![8, 512, 768]⟩
abbrev S8x256x128 : Shape := ⟨3, ![8, 256, 128]⟩
abbrev S256x128 : Shape := ⟨2, ![256, 128]⟩
abbrev S1x256x1 : Shape := ⟨3, ![1, 256, 1]⟩
abbrev S256x1 : Shape := ⟨2, ![256, 1]⟩
abbrev S256x512 : Shape := ⟨2, ![256, 512]⟩
abbrev S1x512x768 : Shape := ⟨3, ![1, 512, 768]⟩
abbrev S512x768 : Shape := ⟨2, ![512, 768]⟩
abbrev S256x768 : Shape := ⟨2, ![256, 768]⟩
abbrev S1x256x128 : Shape := ⟨3, ![1, 256, 128]⟩
abbrev S64x256x96 : Shape := ⟨3, ![64, 256, 96]⟩
abbrev S64x256x32x3 : Shape := ⟨4, ![64, 256, 32, 3]⟩
abbrev S32x64x256x3 : Shape := ⟨4, ![32, 64, 256, 3]⟩

abbrev nBuf : Space → Nat
  | .hbm => 25
  | .vmem => 8
  | .smem => 0
  | _ => 0

abbrev bufTy : (tb : Table) → Fin (tcTables nBuf tb) → BufTy
  | .hbm, ⟨0, _⟩ => ⟨S64x512x768, .f32⟩
  | .hbm, ⟨1, _⟩ => ⟨S64x256, .i32⟩
  | .hbm, ⟨2, _⟩ => ⟨S32x3x768, .f32⟩
  | .hbm, ⟨3, _⟩ => ⟨S32x3, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64x256, .i32⟩
  | .hbm, ⟨8, _⟩ => ⟨S64x256, .i32⟩
  | .hbm, ⟨9, _⟩ => ⟨S_, .i32⟩
  | .hbm, ⟨10, _⟩ => ⟨S64x256, .i32⟩
  | .hbm, ⟨11, _⟩ => ⟨S64x256, .i32⟩
  | .hbm, ⟨12, _⟩ => ⟨S64x256x1, .i32⟩
  | .hbm, ⟨13, _⟩ => ⟨S96x768, .f32⟩
  | .hbm, ⟨14, _⟩ => ⟨S_, .i32⟩
  | .hbm, ⟨15, _⟩ => ⟨S_, .f32⟩
  | .hbm, ⟨16, _⟩ => ⟨S128x768, .f32⟩
  | .hbm, ⟨17, _⟩ => ⟨S1x96, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S64x256x128, .f32⟩
  | .hbm, ⟨22, _⟩ => ⟨S64x256x96, .f32⟩
  | .hbm, ⟨23, _⟩ => ⟨S64x256x32x3, .f32⟩
  | .hbm, ⟨24, _⟩ => ⟨S32x64x256x3, .f32⟩
  | .local _ .vmem, ⟨0, _⟩ => ⟨S8x256x1, .i32⟩
  | .local _ .vmem, ⟨1, _⟩ => ⟨S8x256x1, .i32⟩
  | .local _ .vmem, ⟨2, _⟩ => ⟨S8x512x768, .f32⟩
  | .local _ .vmem, ⟨3, _⟩ => ⟨S8x512x768, .f32⟩
  | .local _ .vmem, ⟨4, _⟩ => ⟨S128x768, .f32⟩
  | .local _ .vmem, ⟨5, _⟩ => ⟨S1x128, .f32⟩
  | .local _ .vmem, ⟨6, _⟩ => ⟨S8x256x128, .f32⟩
  | .local _ .vmem, ⟨7, _⟩ => ⟨S8x256x128, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v8 : Index := Scalar.indexCast arg6
  let c0_4 : Index := 0#32
  let c0_5 : Index := 0#32
  ![v8.toNat, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v17 : Index := Scalar.indexCast arg6
  let c0_6 : Index := 0#32
  let c0_7 : Index := 0#32
  ![v17.toNat, 0, 0]
def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let v25 : Index := Scalar.indexCast arg6
  let c0_9 : Index := 0#32
  let c0_10 : Index := 0#32
  ![v25.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x256 : S_.BroadcastsInDim S64x256 (![] : Fin 0 → Fin S64x256.rank)
  shapeCasts_S64x256_S64x256x1 : S64x256.ShapeCasts S64x256x1
  shapeCasts_S32x3x768_S96x768 : S32x3x768.ShapeCasts S96x768
  pads_S96x768_S128x768_0320_000 : S96x768.Pads (![0, 0] : Fin 2 → Nat) ![32, 0] ![0, 0] S128x768
  h_S_ : 0 < S_.numel
  shapeCasts_S32x3_S1x96 : S32x3.ShapeCasts S1x96
  pads_S1x96_S1x128_000_0320 : S1x96.Pads (![0, 0] : Fin 2 → Nat) ![0, 32] ![0, 0] S1x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  h_S1x256x1 : 0 < S1x256x1.numel
  shapeCasts_S1x256x1_S256x1 : S1x256x1.ShapeCasts S256x1
  iota_S256x512_d1_w32 : S256x512.Iotas .tc 32 [1]
  broadcasts_S256x1_S256x512 : S256x1.Broadcasts S256x512
  natLt_1_32 : 1 < 32
  h_S1x512x768 : 0 < S1x512x768.numel
  shapeCasts_S1x512x768_S512x768 : S1x512x768.ShapeCasts S512x768
  h_S1x256x128 : 0 < S1x256x128.numel
  shapeCasts_S1x256x128_S256x128 : S1x256x128.ShapeCasts S256x128
  shapeCasts_S256x128_S1x256x128 : S256x128.ShapeCasts S1x256x128
  slices_S64x256x128_S64x256x96_0_0_0 : S64x256x128.Slices ![0, 0, 0] S64x256x96
  shapeCasts_S64x256x96_S64x256x32x3 : S64x256x96.ShapeCasts S64x256x32x3
  transposes_S64x256x32x3_S32x64x256x3_2_0_1_3 : S64x256x32x3.Transposes [2, 0, 1, 3] S32x64x256x3
  dot_S256x512_S512x768_S256x768_1_0_0_1_n_n_wf : DotDims.WF S256x512 S512x768 S256x768 [1] [0] [0] [1] [] []
  dot_S256x768_S128x768_S256x128_1_1_0_0_n_n_wf : DotDims.WF S256x768 S128x768 S256x128 [1] [1] [0] [0] [] []
  hrank0 : 0 < grid0.rank
  k0_t1_ok : k0_t1_loop.OK
  k0_off1_inb : ∀ k0_t1 : Fin k0_t1_loop.trips, ∀ a, (k0_off1 k0_t1) a + S1x256x1.size a ≤ S8x256x1.size a
  k0_off2_inb : ∀ k0_t1 : Fin k0_t1_loop.trips, ∀ a, (k0_off2 k0_t1) a + S1x512x768.size a ≤ S8x512x768.size a
  k0_off3_inb : ∀ k0_t1 : Fin k0_t1_loop.trips, ∀ a, (k0_off3 k0_t1) a + S1x256x128.size a ≤ S8x256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1.size a ≤ S64x256x1.size a
  hwx0_0 : ∀ i : grid0.Coords, EltTy.bits .i32 = 32 ∨ (Rect.block (s := S64x256x1) S8x256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x768.size a ≤ S64x512x768.size a
  hwx0_1 : ∀ i : grid0.Coords, EltTy.bits .f32 = 32 ∨ (Rect.block (s := S64x512x768) S8x512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .f32 = 32 ∨ (Rect.block (s := S128x768) S128x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x128.size a ≤ S64x256x128.size a
  hwx0_4 : ∀ i : grid0.Coords, EltTy.bits .f32 = 32 ∨ (Rect.block (s := S64x256x128) S8x256x128.size (cc0_transform_4 i) (hinb0_4 i)).WholeWords (EltTy.packing .f32)

variable [Facts₀]

def dot_S256x512_S512x768_S256x768_1_0_0_1_n_n : DotDims S256x512 S512x768 S256x768 where
  lhsContracting := [1]
  rhsContracting := [0]
  lhsNonContracting := [0]
  rhsNonContracting := [1]
  lhsBatch := []
  rhsBatch := []
  wf := dot_S256x512_S512x768_S256x768_1_0_0_1_n_n_wf
def dot_S256x768_S128x768_S256x128_1_1_0_0_n_n : DotDims S256x768 S128x768 S256x128 where
  lhsContracting := [1]
  rhsContracting := [1]
  lhsNonContracting := [0]
  rhsNonContracting := [0]
  lhsBatch := []
  rhsBatch := []
  wf := dot_S256x768_S128x768_S256x128_1_1_0_0_n_n_wf

abbrev win0_0 : Pipeline.Window sig grid0 :=
  Pipeline.Window.ofSpec (Memref.whole main_v1) S8x256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x256 : Shape := ⟨2, ![64, 256]⟩
abbrev S32x3x768 : Shape := ⟨3, ![32, 3, 768]⟩
abbrev S32x3 : Shape := ⟨2, ![32, 3]⟩
abbrev S64x256x1 : Shape := ⟨3, ![64, 256, 1]⟩
abbrev S_ : Shape := ⟨0, ![]⟩
abbrev S1 : Shape := ⟨1, ![1]⟩
abbrev S1x1x1 : Shape := ⟨3, ![1, 1, 1]⟩
abbrev S64x256x768 : Shape := ⟨3, ![64, 256, 768]⟩
abbrev S32x3x64x256 : Shape := ⟨4, ![32, 3, 64, 256]⟩
abbrev S32x64x256x3 : Shape := ⟨4, ![32, 64, 256, 3]⟩
abbrev S32x1x1x3 : Shape := ⟨4, ![32, 1, 1, 3]⟩

abbrev nBuf : Space → Nat
  | .hbm => 32
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x256, .i32⟩
  | .hbm, ⟨2, _⟩ => ⟨S32x3x768, .f32⟩
  | .hbm, ⟨3, _⟩ => ⟨S32x3, .f32⟩
  | .hbm, ⟨4, _⟩ => ⟨S64x256x1, .i32⟩
  | .hbm, ⟨5, _⟩ => ⟨S_, .i32⟩
  | .hbm, ⟨6, _⟩ => ⟨S64x256x1, .i32⟩
  | .hbm, ⟨7, _⟩ => ⟨S64x256x1, .i1⟩
  | .hbm, ⟨8, _⟩ => ⟨S_, .i32⟩
  | .hbm, ⟨9, _⟩ => ⟨S64x256x1, .i32⟩
  | .hbm, ⟨10, _⟩ => ⟨S64x256x1, .i32⟩
  | .hbm, ⟨11, _⟩ => ⟨S64x256x1, .i32⟩
  | .hbm, ⟨12, _⟩ => ⟨S1, .i32⟩
  | .hbm, ⟨13, _⟩ => ⟨S_, .i32⟩
  | .hbm, ⟨14, _⟩ => ⟨S64x256x1, .i32⟩
  | .hbm, ⟨15, _⟩ => ⟨S64x256x1, .i1⟩
  | .hbm, ⟨16, _⟩ => ⟨S1x1x1, .i32⟩
  | .hbm, ⟨17, _⟩ => ⟨S64x256x1, .i32⟩
  | .hbm, ⟨18, _⟩ => ⟨S64x256x1, .i1⟩
  | .hbm, ⟨19, _⟩ => ⟨S64x256x1, .i1⟩
  | .hbm, ⟨20, _⟩ => ⟨S_, .i1⟩
  | .hbm, ⟨21, _⟩ => ⟨S64x256, .i1⟩
  | .hbm, ⟨22, _⟩ => ⟨S64x256x768, .f32⟩
  | .hbm, ⟨23, _⟩ => ⟨S64x256x768, .i1⟩
  | .hbm, ⟨24, _⟩ => ⟨S_, .f32⟩
  | .hbm, ⟨25, _⟩ => ⟨S64x256x768, .f32⟩
  | .hbm, ⟨26, _⟩ => ⟨S64x256x768, .f32⟩
  | .hbm, ⟨27, _⟩ => ⟨S32x3x64x256, .f32⟩
  | .hbm, ⟨28, _⟩ => ⟨S32x64x256x3, .f32⟩
  | .hbm, ⟨29, _⟩ => ⟨S32x1x1x3, .f32⟩
  | .hbm, ⟨30, _⟩ => ⟨S32x64x256x3, .f32⟩
  | .hbm, ⟨31, _⟩ => ⟨S32x64x256x3, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S1_S1x1x1_2 : S1.BroadcastsInDim S1x1x1 (![2] : Fin 1 → Fin S1x1x1.rank)
  bcast_S1x1x1_S64x256x1_0_1_2 : S1x1x1.BroadcastsInDim S64x256x1 (![0, 1, 2] : Fin 3 → Fin S64x256x1.rank)
  reducesTo_S64x256x1_S64x256_d2 : S64x256x1.ReducesTo [2] S64x256
  h_S_ : 0 < S_.numel
  bcast_S64x256_S64x256x768_0_1 : S64x256.BroadcastsInDim S64x256x768 (![0, 1] : Fin 2 → Fin S64x256x768.rank)
  bcast_S_S64x256x768 : S_.BroadcastsInDim S64x256x768 (![] : Fin 0 → Fin S64x256x768.rank)
  transposes_S32x3x64x256_S32x64x256x3_0_2_3_1 : S32x3x64x256.Transposes [0, 2, 3, 1] S32x64x256x3
  bcast_S32x3_S32x1x1x3_0_3 : S32x3.BroadcastsInDim S32x1x1x3 (![0, 3] : Fin 2 → Fin S32x1x1x3.rank)
  bcast_S32x1x1x3_S32x64x256x3_0_1_2_3 : S32x1x1x3.BroadcastsInDim S32x64x256x3 (![0, 1, 2, 3] : Fin 4 → Fin S32x64x256x3.rank)
  gather_S64x512x768_S64x256x1_S64x256x768_2_1_0_0_1_2_11768_wf : GatherDims.WF S64x512x768 S64x256x1 S64x256x768 [2] [1] [0] [1] [0] 2 ![1, 1, 768]
  dot_S32x3x768_S64x256x768_S32x3x64x256_2_2_01_01_n_n_wf : DotDims.WF S32x3x768 S64x256x768 S32x3x64x256 [2] [2] [0, 1] [0, 1] [] []

variable [Facts₀]

def gather_S64x512x768_S64x256x1_S64x256x768_2_1_0_0_1_2_11768 : GatherDims S64x512x768 S64x256x1 S64x256x768 where
  offsetDims := [2]
  collapsedSliceDims := [1]
  operandBatchingDims := [0]
  startIndicesBatchingDims := [0]
  startIndexMap := [1]
  indexVectorDim := 2
  sliceSizes := ![1, 1, 768]
  wf := gather_S64x512x768_S64x256x1_S64x256x768_2_1_0_0_1_2_11768_wf
def dot_S32x3x768_S64x256x768_S32x3x64x256_2_2_01_01_n_n : DotDims S32x3x768 S64x256x768 S32x3x64x256 where
  lhsContracting := [2]
  rhsContracting := [2]
  lhsNonContracting := [0, 1]
  rhsNonContracting := [0, 1]
  lhsBatch := []
  rhsBatch := []
  wf := dot_S32x3x768_S64x256x768_S32x3x64x256_2_2_01_01_n_n_wf

class Facts : Prop extends Facts₀ where

variable [Facts]
-- ==== Proof.Spec.lean ====
/-
  The function both programs compute, as ONE function of the four argument arrays.

  A batch element `b` has 512 subword rows of 768 features (`seq`), and 256 word positions, each naming one of
  those rows by an integer word (`idx`). Word position `w` is POOLED to the row its word names: the word read as a
  signed integer and clamped into `[0, 511]` (`row`). Each of the 32 attributes `a` has a linear classifier with
  three classes `c`: a weight row `cw[a, c, ·]` of 768 entries and a bias `cb[a, c]`. The logit at `(a, b, w, c)` is
  the inner product of the weight row with the pooled row, plus the bias, over the extended reals.
-/
import Idealize.ShloMosaic.PureOps.Ideal
import Idealize.ShloMosaic.Lib.ValueIdx

noncomputable section

namespace Cert.Pool

open Idealize.ShloMosaic Idealize.ShloMosaic.ValueIdx

/-- The subword row a word names: the word as a signed integer, clamped into `[0, 511]`. -/
def row (w : BitVec 32) : Fin 512 := ⟨min w.toInt.toNat 511, by omega⟩

/-- A word that is in range as a signed integer names the row of its own value. -/
theorem row_val_of_range (w : BitVec 32) (h0 : 0 ≤ w.toInt) (h1 : w.toInt < 512) : ((row w).val : Int) = w.toInt := by
  unfold row
  show ((min w.toInt.toNat 511 : Nat) : Int) = w.toInt
  omega

/-- Every word of the index table is in range as a signed integer: `0 ≤ idx[b, w] < 512`. -/
def InRange (idx : IVec ⟨2, ![64, 256]⟩ 32) : Prop :=
  ∀ (b : Fin 64) (w : Fin 256), 0 ≤ (idx (ix2 b w)).toInt ∧ (idx (ix2 b w)).toInt < 512

/-- One logit: the weight row of attribute `a`, class `c`, against the row of batch element `b` that word
    position `w` names, plus the bias. -/
def logit (seq : FVec Ideal ⟨3, ![64, 512, 768]⟩ .f32) (idx : IVec ⟨2, ![64, 256]⟩ 32)
    (cw : FVec Ideal ⟨3, ![32, 3, 768]⟩ .f32) (cb : FVec Ideal ⟨2, ![32, 3]⟩ .f32)
    (a : Fin 32) (b : Fin 64) (w : Fin 256) (c : Fin 3) : EReal :=
  (∑ k : Fin 768, cw (ix3 a c k) * seq (ix3 b (row (idx (ix2 b w))) k)) + cb (ix2 a c)

/-- The whole result array `[32, 64, 256, 3]`. -/
def logits (seq : FVec Ideal ⟨3, ![64, 512, 768]⟩ .f32) (idx : IVec ⟨2, ![64, 256]⟩ 32)
    (cw : FVec Ideal ⟨3, ![32, 3, 768]⟩ .f32) (cb : FVec Ideal ⟨2, ![32, 3]⟩ .f32) :
    FVec Ideal ⟨4, ![32, 64, 256, 3]⟩ .f32 := fun i =>
  logit seq idx cw cb ⟨(i 0).val, (i 0).isLt⟩ ⟨(i 1).val, (i 1).isLt⟩ ⟨(i 2).val, (i 2).isLt⟩ ⟨(i 3).val, (i 3).isLt⟩

end Cert.Pool

end
-- ==== Proof.RefValue.lean ====
/-
  The reference, read at an index.

  The reference gathers, for word position `(b, w)`, one subword row of batch element `b`: a negative word is first
  wrapped by adding 512, the wrapped word is tested for lying in `[0, 511]`, the gather reads the row the wrapped word
  names (clamped), and where the test fails the row is replaced by a not-a-number pattern. It then contracts the
  gathered rows with the classifier weights and adds the bias. When every word is in range the wrap does nothing,
  the test holds, and the gathered row is the row the word names.
-/
import proofs.«400112_j30812095382008_3_alg».proof.Proof.Spec
import proofs.«400112_j30812095382008_3_alg».proof.Proof.RefRead
import Idealize.ShloMosaic.Lib.ValueIdx
import Idealize.ShloMosaic.Lib.Pipeline.Value
import Idealize.ShloMosaic.Lib.ReduceAll
import Idealize.ShloMosaic.PureOps.Ideal.Laws

noncomputable section

namespace Cert.Pool.Ref

open Idealize.ShloMosaic Idealize.ShloMosaic.ValueIdx Cert.ReferenceIdeal

/-- A word that is non-negative as a signed integer is not below zero. -/
private theorem slt_zero_of_nonneg (w : BitVec 32) (h0 : 0 ≤ w.toInt) : IntOp.cmpi .slt w 0#32 = 0#1 := by
  have hz : (0#32 : BitVec 32).toInt = 0 := by decide
  have : w.slt 0#32 = false := by
    rw [BitVec.slt, hz]; exact decide_eq_false (by omega)
  show BitVec.ofBool (w.slt 0#32) = 0#1
  rw [this]; rfl

/-- A word that is non-negative as a signed integer is at least zero. -/
private theorem sge_zero_of_nonneg (w : BitVec 32) (h0 : 0 ≤ w.toInt) : IntOp.cmpi .sge w 0#32 = 1#1 := by
  have hz : (0#32 : BitVec 32).toInt = 0 := by decide
  have : (0#32 : BitVec 32).sle w = true := by
    rw [BitVec.sle, hz]; exact decide_eq_true h0
  show BitVec.ofBool ((0#32 : BitVec 32).sle w) = 1#1
  rw [this]; rfl

/-- A word below 512 as a signed integer is at most 511. -/
private theorem sle_511_of_lt (w : BitVec 32) (h1 : w.toInt < 512) : IntOp.cmpi .sle w 511#32 = 1#1 := by
  have hz : (511#32 : BitVec 32).toInt = 511 := by decide
  have : w.sle 511#32 = true := by
    rw [BitVec.sle, hz]; exact decide_eq_true (by omega)
  show BitVec.ofBool (w.sle 511#32) = 1#1
  rw [this]; rfl

open Cert.ReferenceIdeal.ReadP

/-- Every word of the index table, read through the unit-axis broadcast, is in range. -/
private theorem v0_range (x1 : IVec S64x256 32) (h : Cert.Pool.InRange x1) (i : S64x256x1.Idx) :
    0 ≤ (val_main_v0 (F := Ideal) x1 i).toInt ∧ (val_main_v0 (F := Ideal) x1 i).toInt < 512 := by
  rw [val_main_v0_apply]
  have e : idx_main_v0 i = ix2 (⟨(i 0).val, (i 0).isLt⟩ : Fin 64) (⟨(i 1).val, (i 1).isLt⟩ : Fin 256) :=
    funext fun a => Fin.ext (by match a with | ⟨0, _⟩ => rfl | ⟨1, _⟩ => rfl)
  rw [e]
  exact h _ _

/-- In range, the wrap of negative words does nothing: the wrapped word is the word. -/
private theorem v4_eq (x1 : IVec S64x256 32) (h : Cert.Pool.InRange x1) (i : S64x256x1.Idx) :
    val_main_call0_v4 (F := Ideal) x1 i = val_main_v0 (F := Ideal) x1 i := by
  rw [val_main_call0_v4_apply, val_main_call0_v1_apply, val_main_call0_v0_apply, val_main_call0_c_apply,
    slt_zero_of_nonneg _ (v0_range x1 h i).1, select_zero]

/-- In range, the test "the wrapped word lies in [0, 511]" holds everywhere. -/
private theorem v10_eq_one (x1 : IVec S64x256 32) (h : Cert.Pool.InRange x1) (i : S64x256x1.Idx) :
    val_main_call0_v10 (F := Ideal) x1 i = 1#1 := by
  rw [val_main_call0_v10_apply, val_main_call0_v6_apply, val_main_call0_v9_apply, v4_eq x1 h i,
    val_main_call0_v5_apply, val_main_call0_c_2_apply, val_main_call0_v8_apply, val_main_call0_v7_apply,
    val_main_call0_c_1_apply, sge_zero_of_nonneg _ (v0_range x1 h i).1, sle_511_of_lt _ (v0_range x1 h i).2]
  rfl

/-- A left fold by `and` from 1 over words that are all 1 is 1. -/
private theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- In range, the test reduced over its unit axis holds at every word position. -/
private theorem v11_eq_one (x1 : IVec S64x256 32) (h : Cert.Pool.InRange x1) (j : S64x256.Idx) :
    val_main_call0_v11 (F := Ideal) x1 j = 1#1 := by
  unfold val_main_call0_v11
  rw [Host.reduce_eq_foldl]
  exact foldl_andi_one _ (v10_eq_one x1 h) _

local notation "G" => gather_S64x512x768_S64x256x1_S64x256x768_2_1_0_0_1_2_11768

/-- The start-indices index the gather reads for result position `(b, w, k)`: `(b, w, 0)`. -/
private theorem G_siIdx (b : Fin 64) (w : Fin 256) (k : Fin 768) (c : Fin (GatherDims.startIndexMap G).length) :
    GatherDims.siIdx G (ix3 b w k) c = ix3 b w (0 : Fin 1) := by
  funext a; refine Fin.ext ?_
  match a with
  | ⟨0, _⟩ => rfl
  | ⟨1, _⟩ => rfl
  | ⟨2, _⟩ =>
    show c.val = 0
    have : c.val < 1 := c.isLt
    omega

/-- Axis 0 of the operand is the batching axis: the gather reads batch element `b`. -/
private theorem G_operand_0 (idx : IVec S64x256x1 32) (b : Fin 64) (w : Fin 256) (k : Fin 768) :
    (GatherDims.operandIdx G (ix3 b w k) idx 0).val = b.val := by
  have hb : (0 : Fin S64x512x768.rank) ∈ GatherDims.operandBatchingDims G := by decide
  show GatherDims.start G (ix3 b w k) idx 0 + GatherDims.batchCoord G (ix3 b w k) 0 + GatherDims.offCoord G (ix3 b w k) 0 = _
  rw [GatherDims.start_batching G _ _ _ hb,
    GatherDims.offCoord_eq_zero G _ _ (fun h => ((GatherDims.mem_sKept G _).mp h).2 hb), Nat.zero_add, Nat.add_zero]
  unfold GatherDims.batchCoord
  rw [dif_pos hb]
  rfl

/-- Axis 1 of the operand is the one the start index names: the gather reads the row the word at `(b, w, 0)` names,
    read signed and clamped into `[0, 511]`. -/
private theorem G_operand_1 (idx : IVec S64x256x1 32) (b : Fin 64) (w : Fin 256) (k : Fin 768) :
    (GatherDims.operandIdx G (ix3 b w k) idx 1).val = (Cert.Pool.row (idx (ix3 b w (0 : Fin 1)))).val := by
  have hm : (1 : Fin S64x512x768.rank) ∈ GatherDims.startIndexMap G := by decide
  have hnb : (1 : Fin S64x512x768.rank) ∉ GatherDims.operandBatchingDims G := by decide
  have hc : (1 : Fin S64x512x768.rank) ∈ GatherDims.collapsedSliceDims G := by decide
  show GatherDims.start G (ix3 b w k) idx 1 + GatherDims.batchCoord G (ix3 b w k) 1 + GatherDims.offCoord G (ix3 b w k) 1 = _
  rw [GatherDims.batchCoord_eq_zero G _ _ hnb,
    GatherDims.offCoord_eq_zero G _ _ (fun h => ((GatherDims.mem_sKept G _).mp h).1 hc), Nat.add_zero]
  unfold GatherDims.start
  rw [dif_pos hm, G_siIdx]
  rfl

/-- Axis 2 of the operand is the offset axis: the gather reads feature `k`. -/
private theorem G_operand_2 (idx : IVec S64x256x1 32) (b : Fin 64) (w : Fin 256) (k : Fin 768) :
    (GatherDims.operandIdx G (ix3 b w k) idx 2).val = k.val := by
  have hnm : (2 : Fin S64x512x768.rank) ∉ GatherDims.startIndexMap G := by decide
  have hnb : (2 : Fin S64x512x768.rank) ∉ GatherDims.operandBatchingDims G := by decide
  have hk : (2 : Fin S64x512x768.rank) ∈ GatherDims.sKept G := by decide
  show GatherDims.start G (ix3 b w k) idx 2 + GatherDims.batchCoord G (ix3 b w k) 2 + GatherDims.offCoord G (ix3 b w k) 2 = _
  rw [GatherDims.batchCoord_eq_zero G _ _ hnb, Nat.add_zero]
  unfold GatherDims.start GatherDims.offCoord
  rw [dif_neg hnm, dif_pos hk, Nat.zero_add]
  rfl

/-- THE GATHER READ AT `(b, w, k)`: the operand at batch `b`, at the row the start index `idx[b, w, 0]` names (read
    signed and clamped into `[0, 511]`), at feature `k`. -/
private theorem gather_apply {α : Type} (x : S64x512x768.Idx → α) (idx : IVec S64x256x1 32) (b : Fin 64) (w : Fin 256) (k : Fin 768) :
    Host.gather G x idx (ix3 b w k) = x (ix3 b (Cert.Pool.row (idx (ix3 b w (0 : Fin 1)))) k) := by
  unfold Host.gather
  congr 1
  funext a
  refine Fin.ext ?_
  match a with
  | ⟨0, _⟩ => exact G_operand_0 idx b w k
  | ⟨1, _⟩ => exact G_operand_1 idx b w k
  | ⟨2, _⟩ => exact G_operand_2 idx b w k

/-- In range, the pooled array at `(b, w, k)` is the row of batch element `b` that the word at `(b, w)` names. -/
private theorem v1_eq (x0 : FVec Ideal S64x512x768 .f32) (x1 : IVec S64x256 32) (h : Cert.Pool.InRange x1)
    (b : Fin 64) (w : Fin 256) (k : Fin 768) :
    val_main_v1 (F := Ideal) x0 x1 (ix3 b w k) = x0 (ix3 b (Cert.Pool.row (x1 (ix2 b w))) k) := by
  rw [val_main_v1_apply, val_main_call0_v13_apply, v11_eq_one x1 h, select_one]
  unfold val_main_call0_v12
  rw [gather_apply, v4_eq x1 h, val_main_v0_apply]
  have e : idx_main_v0 (ix3 b w (0 : Fin 1)) = ix2 b w :=
    funext fun a => Fin.ext (by match a with | ⟨0, _⟩ => rfl | ⟨1, _⟩ => rfl)
  rw [e]

/-- With every word in range, the reference's result array is the specification's. -/
theorem ref_eq_logits (x0 : FVec Ideal S64x512x768 .f32) (x1 : IVec S64x256 32) (x2 : FVec Ideal S32x3x768 .f32)
    (x3 : FVec Ideal S32x3 .f32) (h : Cert.Pool.InRange x1) :
    Cert.ReferenceIdeal.ReadP.val_main_v6 (F := Ideal) x0 x1 x2 x3 = Cert.Pool.logits x0 x1 x2 x3 := by
  funext i
  rw [val_main_v6_apply, val_main_v3_apply, val_main_v2_apply, val_main_v5_apply, val_main_v4_apply]
  show (∑ k : Fin 768, x2 (lidx_main_v2 (idx_main_v3 i) k) * val_main_v1 (F := Ideal) x0 x1 (ridx_main_v2 (idx_main_v3 i) k))
      + x3 (idx_main_v4 (idx_main_v5 i)) = _
  unfold Cert.Pool.logits Cert.Pool.logit
  have eb : idx_main_v4 (idx_main_v5 i) = ix2 (⟨(i 0).val, (i 0).isLt⟩ : Fin 32) (⟨(i 3).val, (i 3).isLt⟩ : Fin 3) :=
    funext fun a => Fin.ext (by match a with | ⟨0, _⟩ => rfl | ⟨1, _⟩ => rfl)
  rw [eb]
  congr 1
  refine Finset.sum_congr rfl fun k _ => ?_
  have el : lidx_main_v2 (idx_main_v3 i) k
      = ix3 (⟨(i 0).val, (i 0).isLt⟩ : Fin 32) (⟨(i 3).val, (i 3).isLt⟩ : Fin 3) k :=
    funext fun a => Fin.ext (by match a with | ⟨0, _⟩ => rfl | ⟨1, _⟩ => rfl | ⟨2, _⟩ => rfl)
  have er : ridx_main_v2 (idx_main_v3 i) k
      = ix3 (⟨(i 1).val, (i 1).isLt⟩ : Fin 64) (⟨(i 2).val, (i 2).isLt⟩ : Fin 256) k :=
    funext fun a => Fin.ext (by match a with | ⟨0, _⟩ => rfl | ⟨1, _⟩ => rfl | ⟨2, _⟩ => rfl)
  rw [el, er, v1_eq x0 x1 h]

end Cert.Pool.Ref

end
-- ==== Proof.PreRange.lean ====
/-
  The precondition's last conjunct, decoded: every word of the index table is at least 0 and less than 512 as a
  signed integer.
-/
import proofs.«400112_j30812095382008_3_alg».proof.Proof.Spec
import proofs.«400112_j30812095382008_3_alg».proof.Pre_finite_inputs
import Idealize.ShloMosaic.Lib.ValueIdx
import Idealize.ShloMosaic.Lib.ReduceAll
import Idealize.ShloMosaic.Lib.StableHlo.Predicate

noncomputable section

namespace Cert.Pool.Pre

open Idealize.ShloMosaic Idealize.ShloMosaic.ValueIdx Cert.Pre_finite_inputs

variable {F : FTy → Type} [FloatOps F] [Cert.Pre_finite_inputs.Facts]

/-- If the printed precondition is all ones, every word of the index table is in range. -/
theorem inRange_of_pre (x0 : FVec F S64x512x768 .f32) (x1 : IVec S64x256 32) (x2 : FVec F S32x3x768 .f32)
    (x3 : FVec F S32x3 .f32) (h : Cert.Pre_finite_inputs.fn (F := F) x0 x1 x2 x3 = fun _ => 1#1) :
    Cert.Pool.InRange x1 := by
  intro b w
  haveI : Subsingleton S_.Idx := ⟨fun a b => funext fun d => d.elim0⟩
  -- the predicate's one element is 1; it is an `and` whose right half is the all-axes `and`-reduce of the range test
  have h0 := congrFun h ValueIdx.ix0
  dsimp only [fn, fn_part1] at h0
  have hred := (IntOp.andi_eq_one.1 h0).2
  -- so the range test is 1 at every element, in particular at (b, w): both of its compares are 1 there
  have hel := Host.reduce_andi_all _ _ _ _ _ hred (ix2 b w)
  obtain ⟨hge, hlt⟩ := IntOp.andi_eq_one.1 hel
  have hge' : (0#32 : BitVec 32).sle (x1 (ix2 b w)) = true :=
    (StableHlo.Predicate.ofBool_eq_one_iff _).1 hge
  have hlt' : (x1 (ix2 b w)).slt (512#32 : BitVec 32) = true :=
    (StableHlo.Predicate.ofBool_eq_one_iff _).1 hlt
  -- the signed compares against the constants 0 and 512 are the integer comparisons
  have z0 : (0#32 : BitVec 32).toInt = 0 := by decide
  have z512 : (512#32 : BitVec 32).toInt = 512 := by decide
  constructor
  · have := hge'
    simp only [BitVec.sle, decide_eq_true_eq, z0] at this
    exact this
  · have := hlt'
    simp only [BitVec.slt, decide_eq_true_eq, z512] at this
    exact this

end Cert.Pool.Pre

end
-- ==== Proof.LoopPieces.lean ====
/-
  What one grid point's body leaves in the output block `[8, 256, 128]`.

  The body loops over the 8 batch elements of the block. Trip `k` loads slab `k` of the index block `[8, 256, 1]`
  and slab `k` of the subword rows `[8, 512, 768]`, computes one `[1, 256, 128]` slab from them and from the whole
  weight and bias blocks, and stores it at slab `k` of the output block. So the 8 stores tile the output block, and
  entry `(j, w, n)` of what the body leaves is entry `(0, w, n)` of the slab computed from slabs `j` of the two inputs.
-/
import proofs.«400112_j30812095382008_3_alg».proof.Proof.Gen.KernelIdeal.Frame
import Idealize.ShloMosaic.Lib.Pipeline.Value
import Idealize.ShloMosaic.Lib.ValueIdx

set_option maxRecDepth 16384

noncomputable section

namespace Cert.Pool.Loop

open Idealize.ShloMosaic Idealize.ShloMosaic.TcCoe Idealize.ShloMosaic.ValueIdx Idealize.SL.Sem
open Cert.KernelIdeal Cert.KernelIdeal.Gen

variable {F : FTy → Type} [FloatOps F]

theorem hz2 : (![0, 0] : Fin 2 → Nat) = fun _ => 0 := funext fun a => by fin_cases a <;> rfl

/-- Slab `j` of the index block, as a `[1, 256, 1]` array. -/
def idxSlab (x0 : Vec F S8x256x1 .i32) (j : Fin 8) : Vec F S1x256x1 .i32 :=
  fun z => x0 (ix3 j ⟨(z 1).val, (z 1).isLt⟩ ⟨(z 2).val, (z 2).isLt⟩)

/-- Slab `j` of the subword rows, as a `[1, 512, 768]` array. -/
def seqSlab (x1 : Vec F S8x512x768 .f32) (j : Fin 8) : Vec F S1x512x768 .f32 :=
  fun z => x1 (ix3 j ⟨(z 1).val, (z 1).isLt⟩ ⟨(z 2).val, (z 2).isLt⟩)

/-- What the body leaves in the output block: at `(j, w, n)` the slab computed from slabs `j`, at `(0, w, n)`. -/
def bodyOut (x0 : Vec F S8x256x1 .i32) (x1 : Vec F S8x512x768 .f32) (x2 : Vec F S128x768 .f32) (x3 : Vec F S1x128 .f32) : Vec F S8x256x128 .f32 := fun y =>
  k0_pay1 x2 x3 (idxSlab x0 ⟨(y 0).val, (y 0).isLt⟩) (seqSlab x1 ⟨(y 0).val, (y 0).isLt⟩)
    (ix3 (0 : Fin 1) ⟨(y 1).val, (y 1).isLt⟩ ⟨(y 2).val, (y 2).isLt⟩)

/-- The same, at an index whose first coordinate is `j` and whose other two are those of a slab index `x`. -/
theorem bodyOut_of (x0 : Vec F S8x256x1 .i32) (x1 : Vec F S8x512x768 .f32) (x2 : Vec F S128x768 .f32) (x3 : Vec F S1x128 .f32) (y : S8x256x128.Idx) (j : Fin 8) (x : S1x256x128.Idx)
    (h0 : (y 0).val = j.val) (h1 : (y 1).val = (x 1).val) (h2 : (y 2).val = (x 2).val) :
    bodyOut x0 x1 x2 x3 y = k0_pay1 x2 x3 (idxSlab x0 j) (seqSlab x1 j) x := by
  unfold bodyOut
  have ej : (⟨(y 0).val, (y 0).isLt⟩ : Fin 8) = j := Fin.ext h0
  have ex : (ix3 (0 : Fin 1) ⟨(y 1).val, (y 1).isLt⟩ ⟨(y 2).val, (y 2).isLt⟩ : S1x256x128.Idx) = x :=
    funext fun a => Fin.ext (by
      match a with
      | ⟨0, _⟩ => have h : (x 0).val < 1 := (x 0).isLt; show 0 = (x 0).val; omega
      | ⟨1, _⟩ => exact h1
      | ⟨2, _⟩ => exact h2)
  rw [ej, ex]

/-- Trip `k`'s load of the index block reads slab `k`. -/
theorem ld_idx (x0 : Vec F S8x256x1 .i32) (k : Fin k0_t1_loop.trips) (hk : k.val < 8) :
    View.ld x0 (Rect.unit (s := S8x256x1) (k0_off1 k) S1x256x1.size (k0_off1_inb k)) = idxSlab x0 ⟨k.val, hk⟩ := by
  have e0 : k0_off1 k 0 = k.val := by rw [k0_off1_eq]; rfl
  have e1 : k0_off1 k 1 = 0 := by rw [k0_off1_eq]; rfl
  have e2 : k0_off1 k 2 = 0 := by rw [k0_off1_eq]; rfl
  funext z
  show x0 _ = x0 _
  congr 1
  funext a
  apply Fin.ext
  match a with
  | ⟨0, _⟩ => have h : (z 0).val < 1 := (z 0).isLt; show k0_off1 k 0 + 1 * (z 0).val = k.val; omega
  | ⟨1, _⟩ => show k0_off1 k 1 + 1 * (z 1).val = (z 1).val; omega
  | ⟨2, _⟩ => show k0_off1 k 2 + 1 * (z 2).val = (z 2).val; omega

/-- Trip `k`'s load of the subword rows reads slab `k`. -/
theorem ld_seq (x1 : Vec F S8x512x768 .f32) (k : Fin k0_t1_loop.trips) (hk : k.val < 8) :
    View.ld x1 (Rect.unit (s := S8x512x768) (k0_off2 k) S1x512x768.size (k0_off2_inb k)) = seqSlab x1 ⟨k.val, hk⟩ := by
  have e0 : k0_off2 k 0 = k.val := by rw [k0_off2_eq]; rfl
  have e1 : k0_off2 k 1 = 0 := by rw [k0_off2_eq]; rfl
  have e2 : k0_off2 k 2 = 0 := by rw [k0_off2_eq]; rfl
  funext z
  show x1 _ = x1 _
  congr 1
  funext a
  apply Fin.ext
  match a with
  | ⟨0, _⟩ => have h : (z 0).val < 1 := (z 0).isLt; show k0_off2 k 0 + 1 * (z 0).val = k.val; omega
  | ⟨1, _⟩ => show k0_off2 k 1 + 1 * (z 1).val = (z 1).val; omega
  | ⟨2, _⟩ => show k0_off2 k 2 + 1 * (z 2).val = (z 2).val; omega

/-- ONE trip's pieces: a single store, at slab `k` of the output block, of the slab computed from the trip's two loads. -/
theorem tripL_eq (𝒱 : Variants) (bd : Option 𝒱.V) (c : Dev nD) (i : grid0.Coords) (arg1 : Memref sig .tc .vmem S8x256x1 .i32) (harg1 : arg1.IsWhole) (arg2 : Memref sig .tc .vmem S8x512x768 .f32) (harg2 : arg2.IsWhole) (arg3 : Memref sig .tc .vmem S128x768 .f32) (harg3 : arg3.IsWhole) (arg4 : Memref sig .tc .vmem S1x128 .f32) (harg4 : arg4.IsWhole) (arg5 : Memref sig .tc .vmem S8x256x128 .f32) (harg5 : arg5.IsWhole)
    (v0 : Vec F S128x768 .f32) (v3 : Vec F S1x128 .f32) (X1 : BufTy.Contents (Elt F) arg1.view.ty) (X2 : BufTy.Contents (Elt F) arg2.view.ty)
    (k : Fin k0_t1_loop.trips) :
    tripL_k0_t1 (F := F) 𝒱 c bd i arg1 harg1 arg2 harg2 arg3 harg3 arg4 harg4 arg5 harg5 v0 v3 X1 X2 k
      = [⟨Rect.unit (s := S8x256x128) (k0_off3 k) S1x256x128.size (k0_off3_inb k),
          k0_pay1 v0 v3 (View.readAt (Elt F) arg1.view (Rect.unit (s := S8x256x1) (k0_off1 k) S1x256x1.size (k0_off1_inb k)).toLoadRect X1)
            (View.readAt (Elt F) arg2.view (Rect.unit (s := S8x512x768) (k0_off2 k) S1x512x768.size (k0_off2_inb k)).toLoadRect X2)⟩] := by
  unfold tripL_k0_t1 trip_k0_t1
  rfl

/-- That store's payload is the body's function on its rectangle. -/
theorem piece_eq (arg1 : Memref sig .tc .vmem S8x256x1 .i32) (harg1 : arg1.IsWhole) (arg2 : Memref sig .tc .vmem S8x512x768 .f32) (harg2 : arg2.IsWhole) (arg3 : Memref sig .tc .vmem S128x768 .f32) (harg3 : arg3.IsWhole) (arg4 : Memref sig .tc .vmem S1x128 .f32) (harg4 : arg4.IsWhole) (arg5 : Memref sig .tc .vmem S8x256x128 .f32) (harg5 : arg5.IsWhole) (x0 : Vec F S8x256x1 .i32) (x1 : Vec F S8x512x768 .f32) (x2 : Vec F S128x768 .f32) (x3 : Vec F S1x128 .f32) (k : Fin k0_t1_loop.trips) (x : S1x256x128.Idx) :
    k0_pay1 (View.readAt (Elt F) arg3.view (Rect.unit (s := S128x768) ![0, 0] S128x768.size inb_S128x768_S128x768_0_0).toLoadRect (harg3.unread x2))
        (View.readAt (Elt F) arg4.view (Rect.unit (s := S1x128) ![0, 0] S1x128.size inb_S1x128_S1x128_0_0).toLoadRect (harg4.unread x3))
        (View.readAt (Elt F) arg1.view (Rect.unit (s := S8x256x1) (k0_off1 k) S1x256x1.size (k0_off1_inb k)).toLoadRect (harg1.unread x0))
        (View.readAt (Elt F) arg2.view (Rect.unit (s := S8x512x768) (k0_off2 k) S1x512x768.size (k0_off2_inb k)).toLoadRect (harg2.unread x1)) x
      = bodyOut x0 x1 x2 x3 ((Rect.unit (s := S8x256x128) (k0_off3 k) S1x256x128.size (k0_off3_inb k)).emb x) := by
  have hk : k.val < 8 := Nat.lt_of_lt_of_le k.isLt k0_t1_abs.2.1
  rw [View.readAt_eq_ld, View.readAt_eq_ld, View.readAt_eq_ld, View.readAt_eq_ld, harg1.read_unread, harg2.read_unread,
    harg3.read_unread, harg4.read_unread, View.ld_unit_zero (S := S128x768) hz2, View.ld_unit_zero (S := S1x128) hz2,
    ld_idx x0 k hk, ld_seq x1 k hk]
  refine (bodyOut_of x0 x1 x2 x3 _ ⟨k.val, hk⟩ x ?_ ?_ ?_).symm
  · have e0 : k0_off3 k 0 = k.val := by rw [k0_off3_eq]; rfl
    have h : (x 0).val < 1 := (x 0).isLt
    show (k0_off3 k) 0 + 1 * (x 0).val = k.val
    omega
  · have e1 : k0_off3 k 1 = 0 := by rw [k0_off3_eq]; rfl
    show (k0_off3 k) 1 + 1 * (x 1).val = (x 1).val
    omega
  · have e2 : k0_off3 k 2 = 0 := by rw [k0_off3_eq]; rfl
    show (k0_off3 k) 2 + 1 * (x 2).val = (x 2).val
    omega

/-- Every piece of the trips before `n` is the body's function on its rectangle: by induction on the trips. -/
theorem pieces_pb (𝒱 : Variants) (bd : Option 𝒱.V) (c : Dev nD) (i : grid0.Coords) (arg1 : Memref sig .tc .vmem S8x256x1 .i32) (harg1 : arg1.IsWhole) (arg2 : Memref sig .tc .vmem S8x512x768 .f32) (harg2 : arg2.IsWhole) (arg3 : Memref sig .tc .vmem S128x768 .f32) (harg3 : arg3.IsWhole) (arg4 : Memref sig .tc .vmem S1x128 .f32) (harg4 : arg4.IsWhole) (arg5 : Memref sig .tc .vmem S8x256x128 .f32) (harg5 : arg5.IsWhole) (x0 : Vec F S8x256x1 .i32) (x1 : Vec F S8x512x768 .f32) (x2 : Vec F S128x768 .f32) (x3 : Vec F S1x128 .f32) :
    ∀ (n : ℕ), ∀ p ∈ pb_k0_t1 (F := F) 𝒱 c bd i arg1 harg1 arg2 harg2 arg3 harg3 arg4 harg4 arg5 harg5
        (View.readAt (Elt F) arg3.view (Rect.unit (s := S128x768) ![0, 0] S128x768.size inb_S128x768_S128x768_0_0).toLoadRect (harg3.unread x2))
        (View.readAt (Elt F) arg4.view (Rect.unit (s := S1x128) ![0, 0] S1x128.size inb_S1x128_S1x128_0_0).toLoadRect (harg4.unread x3))
        (harg1.unread x0) (harg2.unread x1) n,
      ∀ x : p.1.shape.Idx, p.2 x = bodyOut x0 x1 x2 x3 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rename_i hn
      rcases List.mem_append.mp hp with h | h
      · rw [tripL_eq] at h
        obtain rfl := List.mem_singleton.mp h
        intro x
        exact piece_eq arg1 harg1 arg2 harg2 arg3 harg3 arg4 harg4 arg5 harg5 x0 x1 x2 x3 ⟨n, hn⟩ x
      · exact pieces_pb 𝒱 bd c i arg1 harg1 arg2 harg2 arg3 harg3 arg4 harg4 arg5 harg5 x0 x1 x2 x3 n p h
    · exact pieces_pb 𝒱 bd c i arg1 harg1 arg2 harg2 arg3 harg3 arg4 harg4 arg5 harg5 x0 x1 x2 x3 n p hp

/-- What the run leaves in the output's staging buffer is that one function of the four input blocks. -/
theorem out_eq (c : Dev nD) (i : grid0.Coords) (arg1 : Memref sig .tc .vmem S8x256x1 .i32) (harg1 : arg1.IsWhole) (arg2 : Memref sig .tc .vmem S8x512x768 .f32) (harg2 : arg2.IsWhole) (arg3 : Memref sig .tc .vmem S128x768 .f32) (harg3 : arg3.IsWhole) (arg4 : Memref sig .tc .vmem S1x128 .f32) (harg4 : arg4.IsWhole) (arg5 : Memref sig .tc .vmem S8x256x128 .f32) (harg5 : arg5.IsWhole) (x0 : Vec F S8x256x1 .i32) (x1 : Vec F S8x512x768 .f32) (x2 : Vec F S128x768 .f32) (x3 : Vec F S1x128 .f32) :
    out0_A_4 (F := F) c i arg1 harg1 arg2 harg2 arg3 harg3 arg4 harg4 arg5 harg5 x0 x1 x2 x3 = bodyOut x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (bodyOut x0 x1 x2 x3) _ ?_ y (cover0_A_4 c i arg1 harg1 arg2 harg2 arg3 harg3 arg4 harg4 arg5 harg5 x0 x1 x2 x3 y)
  unfold kernelRun0_A
  dsimp only
  exact pieces_pb Variants.none none c i arg1 harg1 arg2 harg2 arg3 harg3 arg4 harg4 arg5 harg5 x0 x1 x2 x3 _

end Cert.Pool.Loop

end
-- ==== Proof.Payload.lean ====
/-
  One trip of the kernel body, read at an index.

  A trip takes one batch element's slab of word indices `v9 : [1, 256, 1]` and of subword rows `v18 : [1, 512, 768]`,
  with the padded classifier weights `v0 : [128, 768]` and bias `v3 : [1, 128]`. It builds the one-hot matrix
  `[256, 512]` whose row `w` has its one at the column the word `v9[0, w, 0]` equals, multiplies it into the rows
  (so row `w` of the product is the row the word names), multiplies that by the weights' transpose and adds the bias.
  Over the extended reals the changes of float format are the identity and both matrix products are plain sums.
-/
import proofs.«400112_j30812095382008_3_alg».proof.Proof.Spec
import proofs.«400112_j30812095382008_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Pool.Body

open Idealize.ShloMosaic Idealize.ShloMosaic.ValueIdx Cert.KernelIdeal Cert.KernelIdeal.Gen

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word at position `w`, spread along the 512 columns. -/
theorem pay_word_apply (v9 : Vec Ideal S1x256x1 .i32) (w : Fin 256) (c : Fin 512) :
    broadcastTo S256x512 (shapeCast S256x1 v9 shapeCasts_S1x256x1_S256x1) broadcasts_S256x1_S256x512 (ix2 w c)
      = v9 (ix3 (0 : Fin 1) w (0 : Fin 1)) := by
  refine (broadcastTo_a1_ab_apply _ broadcasts_S256x1_S256x512 w c).trans ?_
  exact shapeCast_1ab_ab_apply v9 shapeCasts_S1x256x1_S256x1 w (0 : Fin 1)

/-- The column counter at `(w, c)` is `c`. -/
theorem pay_iota_apply (w : Fin 256) (c : Fin 512) :
    iota .tc S256x512 32 [1] iota_S256x512_d1_w32 (ix2 w c) = BitVec.ofNat 32 c.val :=
  iota_single_apply .tc S256x512 32 1 iota_S256x512_d1_w32 (ix2 w c)

/-- Two numbers below 512 have the same 32-bit word only when they are equal. -/
theorem pay_ofNat32_eq_iff (r c : Fin 512) : (BitVec.ofNat 32 r.val == BitVec.ofNat 32 c.val) = decide (c = r) := by
  have hr := r.isLt; have hc := c.isLt
  by_cases h : c = r
  · subst h; simp
  · have : ¬ (BitVec.ofNat 32 r.val = BitVec.ofNat 32 c.val) := by
      intro e
      have := congrArg BitVec.toNat e
      simp only [BitVec.toNat_ofNat] at this
      rw [Nat.mod_eq_of_lt (by omega), Nat.mod_eq_of_lt (by omega)] at this
      exact h (Fin.ext this.symm)
    simp [h, this]

/-- The one-hot entry: the bit "word = column", widened and converted, is the extended real one on the word's column and
    zero elsewhere. -/
theorem pay_onehot_scalar (x y : BitVec 32) (r c : Fin 512) (hx : x = BitVec.ofNat 32 r.val) (hy : y = BitVec.ofNat 32 c.val) :
    (FloatOps.sitofp (F := Ideal) .f32 ((IntOp.cmpi .eq x y).setWidth 32) : EReal) = if c = r then 1 else 0 := by
  subst hx; subst hy
  show (((((IntOp.cmpi .eq (BitVec.ofNat 32 r.val) (BitVec.ofNat 32 c.val)).setWidth 32).toInt : ℝ)) : EReal) = _
  unfold IntOp.cmpi
  show ((((BitVec.ofBool (BitVec.ofNat 32 r.val == BitVec.ofNat 32 c.val)).setWidth 32).toInt : ℝ) : EReal) = _
  rw [pay_ofNat32_eq_iff]
  by_cases h : c = r
  · rw [if_pos h, decide_eq_true h]
    have : ((BitVec.ofBool true).setWidth 32).toInt = 1 := by decide
    rw [this]; simp
  · rw [if_neg h, decide_eq_false h]
    have : ((BitVec.ofBool false).setWidth 32).toInt = 0 := by decide
    rw [this]; simp

/-! ## The first product's operand indices: the left operand `[256, 512]` contracts its axis 1, the right `[512, 768]` its axis 0 -/

theorem pay_lhs_first_0 (i : S256x768.Idx) (q : dot_S256x512_S512x768_S256x768_1_0_0_1_n_n.contr.Idx) :
    (dot_S256x512_S512x768_S256x768_1_0_0_1_n_n.lhsIdx i q 0).val = (i 0).val := by
  unfold DotDims.lhsIdx
  rw [dif_neg (show ¬(0 : Fin S256x512.rank) ∈ dot_S256x512_S512x768_S256x768_1_0_0_1_n_n.lhsBatch by decide), dif_pos (show (0 : Fin S256x512.rank) ∈ dot_S256x512_S512x768_S256x768_1_0_0_1_n_n.lhsNonContracting by decide)]
  rfl
theorem pay_lhs_first_1 (i : S256x768.Idx) (q : dot_S256x512_S512x768_S256x768_1_0_0_1_n_n.contr.Idx) :
    (dot_S256x512_S512x768_S256x768_1_0_0_1_n_n.lhsIdx i q 1).val = (q ⟨0, by decide⟩).val :=
  dot_S256x512_S512x768_S256x768_1_0_0_1_n_n.lhsIdx_val_of_single rfl i q
theorem pay_rhs_first_0 (i : S256x768.Idx) (q : dot_S256x512_S512x768_S256x768_1_0_0_1_n_n.contr.Idx) :
    (dot_S256x512_S512x768_S256x768_1_0_0_1_n_n.rhsIdx i q 0).val = (q ⟨0, by decide⟩).val :=
  dot_S256x512_S512x768_S256x768_1_0_0_1_n_n.rhsIdx_val_of_single rfl i q
theorem pay_rhs_first_1 (i : S256x768.Idx) (q : dot_S256x512_S512x768_S256x768_1_0_0_1_n_n.contr.Idx) :
    (dot_S256x512_S512x768_S256x768_1_0_0_1_n_n.rhsIdx i q 1).val = (i 1).val := by
  unfold DotDims.rhsIdx
  rw [dif_neg (show ¬(1 : Fin S512x768.rank) ∈ dot_S256x512_S512x768_S256x768_1_0_0_1_n_n.rhsBatch by decide), dif_pos (show (1 : Fin S512x768.rank) ∈ dot_S256x512_S512x768_S256x768_1_0_0_1_n_n.rhsNonContracting by decide)]
  rfl

/-- The first product at `(w, d)`: the sum over the 512 columns of the left row `w` times the right column `d`. -/
theorem pay_first_apply (A : FVec Ideal S256x512 .bf16) (B : FVec Ideal S512x768 .bf16) (w : Fin 256) (d : Fin 768) :
    matmul dot_S256x512_S512x768_S256x768_1_0_0_1_n_n none A B (constant (F := Ideal) S256x768 .f32 0x00000000#32) (ix2 w d)
      = ∑ k : Fin 512, A (ix2 w k) * B (ix2 k d) := by
  simp only [matmul]
  rw [Ideal.matmul_constant_zero_apply, ← Equiv.sum_comp (ValueIdx.contrEquiv1 dot_S256x512_S512x768_S256x768_1_0_0_1_n_n 512 rfl rfl).symm]
  refine Finset.sum_congr rfl fun k _ => ?_
  have hk := ValueIdx.contrEquiv1_symm_val dot_S256x512_S512x768_S256x768_1_0_0_1_n_n 512 rfl rfl k
  have el : dot_S256x512_S512x768_S256x768_1_0_0_1_n_n.lhsIdx (ix2 w d) ((ValueIdx.contrEquiv1 dot_S256x512_S512x768_S256x768_1_0_0_1_n_n 512 rfl rfl).symm k) = ix2 w k := funext fun a => Fin.ext (by
    match a with
    | ⟨0, _⟩ => exact pay_lhs_first_0 _ _
    | ⟨1, _⟩ => exact (pay_lhs_first_1 _ _).trans hk)
  have er : dot_S256x512_S512x768_S256x768_1_0_0_1_n_n.rhsIdx (ix2 w d) ((ValueIdx.contrEquiv1 dot_S256x512_S512x768_S256x768_1_0_0_1_n_n 512 rfl rfl).symm k) = ix2 k d := funext fun a => Fin.ext (by
    match a with
    | ⟨0, _⟩ => exact (pay_rhs_first_0 _ _).trans hk
    | ⟨1, _⟩ => exact pay_rhs_first_1 _ _)
  rw [el, er]

/-! ## The second product's operand indices: the left operand `[256, 768]` and the right `[128, 768]` both contract their axis 1 -/

theorem pay_lhs_second_0 (i : S256x128.Idx) (q : dot_S256x768_S128x768_S256x128_1_1_0_0_n_n.contr.Idx) :
    (dot_S256x768_S128x768_S256x128_1_1_0_0_n_n.lhsIdx i q 0).val = (i 0).val := by
  unfold DotDims.lhsIdx
  rw [dif_neg (show ¬(0 : Fin S256x768.rank) ∈ dot_S256x768_S128x768_S256x128_1_1_0_0_n_n.lhsBatch by decide), dif_pos (show (0 : Fin S256x768.rank) ∈ dot_S256x768_S128x768_S256x128_1_1_0_0_n_n.lhsNonContracting by decide)]
  rfl
theorem pay_lhs_second_1 (i : S256x128.Idx) (q : dot_S256x768_S128x768_S256x128_1_1_0_0_n_n.contr.Idx) :
    (dot_S256x768_S128x768_S256x128_1_1_0_0_n_n.lhsIdx i q 1).val = (q ⟨0, by decide⟩).val :=
  dot_S256x768_S128x768_S256x128_1_1_0_0_n_n.lhsIdx_val_of_single rfl i q
theorem pay_rhs_second_0 (i : S256x128.Idx) (q : dot_S256x768_S128x768_S256x128_1_1_0_0_n_n.contr.Idx) :
    (dot_S256x768_S128x768_S256x128_1_1_0_0_n_n.rhsIdx i q 0).val = (i 1).val := by
  unfold DotDims.rhsIdx
  rw [dif_neg (show ¬(0 : Fin S128x768.rank) ∈ dot_S256x768_S128x768_S256x128_1_1_0_0_n_n.rhsBatch by decide), dif_pos (show (0 : Fin S128x768.rank) ∈ dot_S256x768_S128x768_S256x128_1_1_0_0_n_n.rhsNonContracting by decide)]
  rfl
theorem pay_rhs_second_1 (i : S256x128.Idx) (q : dot_S256x768_S128x768_S256x128_1_1_0_0_n_n.contr.Idx) :
    (dot_S256x768_S128x768_S256x128_1_1_0_0_n_n.rhsIdx i q 1).val = (q ⟨0, by decide⟩).val :=
  dot_S256x768_S128x768_S256x128_1_1_0_0_n_n.rhsIdx_val_of_single rfl i q

/-- The second product at `(w, n)`: the sum over the 768 features of the left row `w` times the right row `n`. -/
theorem pay_second_apply (A : FVec Ideal S256x768 .bf16) (B : FVec Ideal S128x768 .bf16) (w : Fin 256) (n : Fin 128) :
    matmul dot_S256x768_S128x768_S256x128_1_1_0_0_n_n none A B (constant (F := Ideal) S256x128 .f32 0x00000000#32) (ix2 w n)
      = ∑ d : Fin 768, A (ix2 w d) * B (ix2 n d) := by
  simp only [matmul]
  rw [Ideal.matmul_constant_zero_apply, ← Equiv.sum_comp (ValueIdx.contrEquiv1 dot_S256x768_S128x768_S256x128_1_1_0_0_n_n 768 rfl rfl).symm]
  refine Finset.sum_congr rfl fun k _ => ?_
  have hk := ValueIdx.contrEquiv1_symm_val dot_S256x768_S128x768_S256x128_1_1_0_0_n_n 768 rfl rfl k
  have el : dot_S256x768_S128x768_S256x128_1_1_0_0_n_n.lhsIdx (ix2 w n) ((ValueIdx.contrEquiv1 dot_S256x768_S128x768_S256x128_1_1_0_0_n_n 768 rfl rfl).symm k) = ix2 w k := funext fun a => Fin.ext (by
    match a with
    | ⟨0, _⟩ => exact pay_lhs_second_0 _ _
    | ⟨1, _⟩ => exact (pay_lhs_second_1 _ _).trans hk)
  have er : dot_S256x768_S128x768_S256x128_1_1_0_0_n_n.rhsIdx (ix2 w n) ((ValueIdx.contrEquiv1 dot_S256x768_S128x768_S256x128_1_1_0_0_n_n 768 rfl rfl).symm k) = ix2 n k := funext fun a => Fin.ext (by
    match a with
    | ⟨0, _⟩ => exact pay_rhs_second_0 _ _
    | ⟨1, _⟩ => exact (pay_rhs_second_1 _ _).trans hk)
  rw [el, er]

/-- The one-hot matrix at `(w, c)`, when the word at position `w` is the number `r`: one on column `r`, zero elsewhere. -/
theorem pay_onehot_apply (v9 : Vec Ideal S1x256x1 .i32) (w : Fin 256) (r c : Fin 512)
    (hr : v9 (ix3 (0 : Fin 1) w (0 : Fin 1)) = BitVec.ofNat 32 r.val) :
    (truncf .bf16 (sitofp (F := Ideal) .f32 (extui 32 (cmpi .eq
        (broadcastTo S256x512 (shapeCast S256x1 v9 shapeCasts_S1x256x1_S256x1) broadcasts_S256x1_S256x512)
        (iota .tc S256x512 32 [1] iota_S256x512_d1_w32)) natLt_1_32)) bitsLt_bf16_f32 : FVec Ideal S256x512 .bf16) (ix2 w c)
      = if c = r then 1 else 0 :=
  pay_onehot_scalar _ _ r c ((pay_word_apply v9 w c).trans hr) (pay_iota_apply w c)

/-- The one-hot matrix times the subword rows, at `(w, d)`: the row the word names, at `d`. Every term of the sum but
    column `r`'s is zero times an extended real, which is zero, and column `r`'s is one times the entry. -/
theorem pay_gathered_apply (v9 : Vec Ideal S1x256x1 .i32) (v18 : Vec Ideal S1x512x768 .f32) (w : Fin 256) (r : Fin 512) (d : Fin 768)
    (hr : v9 (ix3 (0 : Fin 1) w (0 : Fin 1)) = BitVec.ofNat 32 r.val) :
    matmul dot_S256x512_S512x768_S256x768_1_0_0_1_n_n none
        (truncf .bf16 (sitofp (F := Ideal) .f32 (extui 32 (cmpi .eq
          (broadcastTo S256x512 (shapeCast S256x1 v9 shapeCasts_S1x256x1_S256x1) broadcasts_S256x1_S256x512)
          (iota .tc S256x512 32 [1] iota_S256x512_d1_w32)) natLt_1_32)) bitsLt_bf16_f32)
        (truncf .bf16 (shapeCast S512x768 v18 shapeCasts_S1x512x768_S512x768) bitsLt_bf16_f32)
        (constant (F := Ideal) S256x768 .f32 0x00000000#32) (ix2 w d)
      = v18 (ix3 (0 : Fin 1) r d) := by
  refine (pay_first_apply _ _ w d).trans ?_
  rw [Finset.sum_eq_single r]
  · rw [pay_onehot_apply v9 w r r hr, if_pos rfl, one_mul]
    exact shapeCast_1ab_ab_apply v18 shapeCasts_S1x512x768_S512x768 r d
  · intro c _ hc
    rw [pay_onehot_apply v9 w r c hr, if_neg hc, zero_mul]
  · intro h; exact absurd (Finset.mem_univ r) h

/-- The payload of one trip at `(0, w, n)`, when the word at position `w` is the number `r < 512`: the inner product
    of subword row `r` with weight row `n`, plus bias entry `n`. -/
theorem pay_apply (v0 : Vec Ideal S128x768 .f32) (v3 : Vec Ideal S1x128 .f32) (v9 : Vec Ideal S1x256x1 .i32)
    (v18 : Vec Ideal S1x512x768 .f32) (w : Fin 256) (n : Fin 128) (r : Fin 512)
    (hr : v9 (ix3 (0 : Fin 1) w (0 : Fin 1)) = BitVec.ofNat 32 r.val) :
    k0_pay1 (F := Ideal) v0 v3 v9 v18 (ix3 (0 : Fin 1) w n)
      = (∑ d : Fin 768, v18 (ix3 (0 : Fin 1) r d) * v0 (ix2 n d)) + v3 (ix2 (0 : Fin 1) n) := by
  unfold k0_pay1
  refine (shapeCast_ab_1ab_apply _ shapeCasts_S256x128_S1x256x128 (0 : Fin 1) w n).trans ?_
  refine (addf_apply _ _ _).trans ?_
  refine congrArg₂ (· + ·) ?_ ?_
  · refine (pay_second_apply _ _ w n).trans ?_
    refine Finset.sum_congr rfl fun d _ => ?_
    refine congrArg₂ (· * ·) ?_ ?_
    · exact pay_gathered_apply v9 v18 w r d hr
    · show shapeCast S128x768 v0 shapeCasts_S128x768_S128x768 (ix2 n d) = v0 (ix2 n d)
      rw [shapeCast_self]
  · refine (broadcastTo_1b_ab_apply _ broadcasts_S1x128_S256x128 w n).trans ?_
    rw [shapeCast_self, shapeCast_self]

end Cert.Pool.Body

end
-- ==== Proof.HostSide.lean ====
/-
  The host operations before the region, read at an index.

  Before the region: the index table is clipped into `[0, 511]` and given a trailing unit axis; the classifier
  weights `[32, 3, 768]` are flattened to `[96, 768]` (row `3a + c`) and padded with 32 zero rows; the bias
  `[32, 3]` is flattened to `[1, 96]` and padded with 32 zeros.
-/
import proofs.«400112_j30812095382008_3_alg».proof.Proof.Spec
import proofs.«400112_j30812095382008_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.WordArith
import Idealize.ShloMosaic.Lib.IdealHost
import Idealize.ShloMosaic.Lib.KernelVsHost

noncomputable section

namespace Cert.Pool.Host

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Clipping a word into `[0, 511]` by signed maximum with zero then signed minimum with 511 gives the word's signed
    reading clamped into `[0, 511]`. -/
theorem clip_word (x : BitVec 32) :
    IntOp.minsi 511#32 (IntOp.maxsi 0#32 x) = BitVec.ofNat 32 (Cert.Pool.row x).val := by
  have h1 : (IntOp.maxsi 0#32 x).toNat = x.toInt.toNat := WordArith.toNat_maxsi_zero x
  have h2 : 2 * (IntOp.maxsi 0#32 x).toNat < 2 ^ 32 := WordArith.two_mul_toNat_maxsi_zero_lt x
  have h3 := WordArith.toNat_minsi_of_lt 511#32 (IntOp.maxsi 0#32 x) (by decide) (by omega)
  have h4 : (511#32 : BitVec 32).toNat = 511 := by decide
  apply BitVec.eq_of_toNat_eq
  rw [h3, h1, h4, BitVec.toNat_ofNat]
  show min 511 x.toInt.toNat = (min x.toInt.toNat 511) % 2 ^ 32
  omega

/-- The clipped index table with its trailing unit axis, as the host operations' composed term. -/
theorem V_v1_eq (c : Dev nD) : (V m c main_v1 : S64x256x1.Idx → BitVec 32) =
    shapeCast S64x256x1 (minsi (broadcastInDim S64x256 ![] bcast_S_S64x256 (constantI S_ 32 511#32))
      (maxsi (broadcastInDim S64x256 ![] bcast_S_S64x256 (constantI S_ 32 0#32))
        (m ((c : Thread nD τ).loc main_arg1) : IVec S64x256 32))) shapeCasts_S64x256_S64x256x1 := by
  dsimp only [Gen.V, Gen.V0]
  simp only [hostOps0, hostOps0_1, hostOps0_2, hostOps0_3, hostOps0_4, hostOps0_5, List.flatten_cons, List.flatten_nil, List.append_nil, List.cons_append, List.nil_append]
  after_results
  rfl

/-- The clipped index table as the region finds it: entry `(b, w, 0)` is the number of the row the word names. -/
theorem V_v1_apply (c : Dev nD) (b : Fin 64) (w : Fin 256) :
    (V m c main_v1 : Vec Ideal S64x256x1 .i32) (ix3 b w (0 : Fin 1))
      = BitVec.ofNat 32 (Cert.Pool.row ((m ((c : Thread nD τ).loc main_arg1) : IVec S64x256 32) (ix2 b w))).val := by
  refine (congrFun (V_v1_eq m c) (ix3 b w (0 : Fin 1))).trans ?_
  refine (shapeCast_apply _ shapeCasts_S64x256_S64x256x1 (ix3 b w (0 : Fin 1)) (ix2 b w) ?_).trans ?_
  · rw [Shape.rowMajor_val_two, Shape.rowMajor_val_three]
    show b.val * 256 + w.val = (b.val * 256 + w.val) * 1 + 0
    omega
  · show IntOp.minsi (broadcastInDim S64x256 ![] bcast_S_S64x256 (constantI S_ 32 511#32) (ix2 b w))
        (IntOp.maxsi (broadcastInDim S64x256 ![] bcast_S_S64x256 (constantI S_ 32 0#32) (ix2 b w))
          ((m ((c : Thread nD τ).loc main_arg1) : IVec S64x256 32) (ix2 b w))) = _
    rw [broadcastInDim_scalar_apply, broadcastInDim_scalar_apply, constantI_apply, constantI_apply]
    exact clip_word _

/-- The padded weights, as the host operations' composed term. -/
theorem V_v3_eq (c : Dev nD) : (V m c main_v3 : S128x768.Idx → Ideal .f32) =
    pad S128x768 ![0, 0] ![32, 0] ![0, 0]
      (shapeCast S96x768 (m ((c : Thread nD τ).loc main_arg2) : Vec Ideal S32x3x768 .f32) shapeCasts_S32x3x768_S96x768)
      (sitofp (F := Ideal) .f32 (constantI S_ 32 0#32)) pads_S96x768_S128x768_0320_000 h_S_ := by
  dsimp only [Gen.V, Gen.V0]
  simp only [hostOps0, hostOps0_1, hostOps0_2, hostOps0_3, hostOps0_4, hostOps0_5, List.flatten_cons, List.flatten_nil, List.append_nil, List.cons_append, List.nil_append]
  after_results
  rfl

/-- The padded weights as the region finds them: row `3a + c` is the weight row of attribute `a`, class `c`. -/
theorem V_v3_apply (c : Dev nD) (a : Fin 32) (cl : Fin 3) (d : Fin 768) :
    (V m c main_v3 : Vec Ideal S128x768 .f32) (ix2 (⟨3 * a.val + cl.val, by omega⟩ : Fin 128) d)
      = (m ((c : Thread nD τ).loc main_arg2) : Vec Ideal S32x3x768 .f32) (ix3 a cl d) := by
  refine (congrFun (V_v3_eq m c) (ix2 (⟨3 * a.val + cl.val, by omega⟩ : Fin 128) d)).trans ?_
  refine (pad_apply_of_inside ![0, 0] ![32, 0] ![0, 0] _ _ pads_S96x768_S128x768_0320_000 h_S_
    (ix2 (⟨3 * a.val + cl.val, by omega⟩ : Fin 128) d) (ix2 (⟨3 * a.val + cl.val, by omega⟩ : Fin 96) d) ?_).trans ?_
  · intro e
    match e with
    | ⟨0, _⟩ => show 3 * a.val + cl.val = 0 + (3 * a.val + cl.val) * (0 + 1); omega
    | ⟨1, _⟩ => show d.val = 0 + d.val * (0 + 1); omega
  · refine shapeCast_apply _ shapeCasts_S32x3x768_S96x768 (ix2 (⟨3 * a.val + cl.val, by omega⟩ : Fin 96) d) (ix3 a cl d) ?_
    rw [Shape.rowMajor_val_two, Shape.rowMajor_val_three]
    show (a.val * 3 + cl.val) * 768 + d.val = (3 * a.val + cl.val) * 768 + d.val
    omega

/-- The padded bias, as the host operations' composed term. -/
theorem V_v5_eq (c : Dev nD) : (V m c main_v5 : S1x128.Idx → Ideal .f32) =
    pad S1x128 ![0, 0] ![0, 32] ![0, 0]
      (shapeCast S1x96 (m ((c : Thread nD τ).loc main_arg3) : Vec Ideal S32x3 .f32) shapeCasts_S32x3_S1x96)
      (sitofp (F := Ideal) .f32 (constantI S_ 32 0#32)) pads_S1x96_S1x128_000_0320 h_S_ := by
  dsimp only [Gen.V, Gen.V0]
  simp only [hostOps0, hostOps0_1, hostOps0_2, hostOps0_3, hostOps0_4, hostOps0_5, List.flatten_cons, List.flatten_nil, List.append_nil, List.cons_append, List.nil_append]
  after_results
  rfl

/-- The padded bias as the region finds it: entry `3a + c` is the bias of attribute `a`, class `c`. -/
theorem V_v5_apply (c : Dev nD) (a : Fin 32) (cl : Fin 3) :
    (V m c main_v5 : Vec Ideal S1x128 .f32) (ix2 (0 : Fin 1) (⟨3 * a.val + cl.val, by omega⟩ : Fin 128))
      = (m ((c : Thread nD τ).loc main_arg3) : Vec Ideal S32x3 .f32) (ix2 a cl) := by
  refine (congrFun (V_v5_eq m c) (ix2 (0 : Fin 1) (⟨3 * a.val + cl.val, by omega⟩ : Fin 128))).trans ?_
  refine (pad_apply_of_inside ![0, 0] ![0, 32] ![0, 0] _ _ pads_S1x96_S1x128_000_0320 h_S_
    (ix2 (0 : Fin 1) (⟨3 * a.val + cl.val, by omega⟩ : Fin 128)) (ix2 (0 : Fin 1) (⟨3 * a.val + cl.val, by omega⟩ : Fin 96)) ?_).trans ?_
  · intro e
    match e with
    | ⟨0, _⟩ => show 0 = 0 + 0 * (0 + 1); omega
    | ⟨1, _⟩ => show 3 * a.val + cl.val = 0 + (3 * a.val + cl.val) * (0 + 1); omega
  · refine shapeCast_apply _ shapeCasts_S32x3_S1x96 (ix2 (0 : Fin 1) (⟨3 * a.val + cl.val, by omega⟩ : Fin 96)) (ix2 a cl) ?_
    rw [Shape.rowMajor_val_two, Shape.rowMajor_val_two]
    show a.val * 3 + cl.val = 0 * 96 + (3 * a.val + cl.val)
    omega

end Cert.Pool.Host

end
-- ==== Proof.HostTail.lean ====
/-
  The host operations after the region, read at an index: the first 96 lanes of the `[64, 256, 128]` result are
  kept, lane `3a + c` is split into `(a, c)` (a row-major reshape of the last axis into `[32, 3]`), and the axes
  are permuted to `[32, 64, 256, 3]`.
-/
import proofs.«400112_j30812095382008_3_alg».proof.Proof.Spec
import proofs.«400112_j30812095382008_3_alg».proof.Proof.Gen.KernelIdeal
import Idealize.ShloMosaic.Lib.ValueIdx
import Idealize.ShloMosaic.Lib.ValueLayout
import Idealize.ShloMosaic.Lib.Pipeline.Value

noncomputable section

namespace Cert.Pool.Host

open Idealize.ShloMosaic Idealize.ShloMosaic.ValueIdx
open Cert.KernelIdeal Cert.KernelIdeal.Gen

/-- The three host operations after the region, as one function of the region's result array. -/
def tailFn (arr : FVec Ideal S64x256x128 .f32) : FVec Ideal S32x64x256x3 .f32 :=
  transpose S32x64x256x3 [2, 0, 1, 3]
    (shapeCast S64x256x32x3 (extractStridedSlice S64x256x96 ![0, 0, 0] arr slices_S64x256x128_S64x256x96_0_0_0)
      shapeCasts_S64x256x96_S64x256x32x3)
    transposes_S64x256x32x3_S32x64x256x3_2_0_1_3

/-- The transpose with permutation `[2, 0, 1, 3]`: result axis `k` is operand axis `perm[k]`, so the result at
    `(a, b, w, c)` is the operand at `(b, w, a, c)`. -/
theorem transpose_2013_apply {α : Type} (y : S64x256x32x3.Idx → α) (a : Fin 32) (b : Fin 64) (w : Fin 256) (cl : Fin 3) :
    transpose S32x64x256x3 [2, 0, 1, 3] y transposes_S64x256x32x3_S32x64x256x3_2_0_1_3 (ix4 a b w cl)
      = y (ix4 b w a cl) :=
  transpose_apply [2, 0, 1, 3] y transposes_S64x256x32x3_S32x64x256x3_2_0_1_3 (ix4 a b w cl) (ix4 b w a cl)
    (fun e => match e with
      | ⟨0, _⟩ => rfl
      | ⟨1, _⟩ => rfl
      | ⟨2, _⟩ => rfl
      | ⟨3, _⟩ => rfl)

/-- The row-major reshape of the last axis `96 = 32 * 3`: the result at `(b, w, a, c)` is the operand at lane
    `3a + c` of position `(b, w)`, both having row-major position `((256 b + w) * 32 + a) * 3 + c`. -/
theorem shapeCast_96_32x3_apply {α : Type} (z : S64x256x96.Idx → α) (b : Fin 64) (w : Fin 256) (a : Fin 32) (cl : Fin 3) :
    shapeCast S64x256x32x3 z shapeCasts_S64x256x96_S64x256x32x3 (ix4 b w a cl)
      = z (ix3 b w (⟨3 * a.val + cl.val, by omega⟩ : Fin 96)) :=
  shapeCast_apply z shapeCasts_S64x256x96_S64x256x32x3 (ix4 b w a cl) (ix3 b w (⟨3 * a.val + cl.val, by omega⟩ : Fin 96)) (by
    rw [Shape.rowMajor_val_three, Shape.rowMajor_val_four]
    show (b.val * 256 + w.val) * 96 + (3 * a.val + cl.val) = ((b.val * 256 + w.val) * 32 + a.val) * 3 + cl.val
    omega)

/-- The slice with zero offsets keeps the first 96 lanes: the result at `(b, w, m)` is the operand at `(b, w, m)`. -/
theorem slice_000_apply {α : Type} (x : S64x256x128.Idx → α) (b : Fin 64) (w : Fin 256) (m : Fin 96) :
    extractStridedSlice S64x256x96 ![0, 0, 0] x slices_S64x256x128_S64x256x96_0_0_0 (ix3 b w m)
      = x (ix3 b w (⟨m.val, by omega⟩ : Fin 128)) :=
  extractStridedSlice_apply ![0, 0, 0] x slices_S64x256x128_S64x256x96_0_0_0 (ix3 b w m) (ix3 b w (⟨m.val, by omega⟩ : Fin 128))
    (fun e => match e with
      | ⟨0, _⟩ => by show b.val = 0 + b.val; omega
      | ⟨1, _⟩ => by show w.val = 0 + w.val; omega
      | ⟨2, _⟩ => by show m.val = 0 + m.val; omega)

/-- Read at `(a, b, w, c)`: lane `3a + c` of position `(b, w)`. -/
theorem tailFn_apply (arr : FVec Ideal S64x256x128 .f32) (a : Fin 32) (b : Fin 64) (w : Fin 256) (cl : Fin 3) :
    tailFn arr (ix4 a b w cl) = arr (ix3 b w (⟨3 * a.val + cl.val, by omega⟩ : Fin 128)) := by
  unfold tailFn
  refine (transpose_2013_apply _ a b w cl).trans ?_
  refine (shapeCast_96_32x3_apply _ b w a cl).trans ?_
  exact slice_000_apply arr b w (⟨3 * a.val + cl.val, by omega⟩ : Fin 96)

end Cert.Pool.Host

end
-- ==== Proof.KernelValue.lean ====
/-
  What the kernel's program leaves in its result array, as one function of its four argument arrays.

  The region runs 8 grid points; point `t` stages batch elements `8t … 8t+7` of the clipped index table and of the
  subword rows, the whole padded weights and bias, and writes back block `t` of the `[64, 256, 128]` result. By the
  loop's pieces, entry `(j, w, n)` of what point `t` writes is the slab computed from batch element `8t + j`; so
  the blocks are the restrictions of ONE function `regionAt` of `(b, w, n)`, and they tile the array. The host
  operations after the region then read lane `3a + c` at position `(b, w)` into entry `(a, b, w, c)`.
-/
import proofs.«400112_j30812095382008_3_alg».proof.Proof.Spec
import proofs.«400112_j30812095382008_3_alg».proof.Proof.LoopPieces
import proofs.«400112_j30812095382008_3_alg».proof.Proof.Payload
import proofs.«400112_j30812095382008_3_alg».proof.Proof.HostSide
import proofs.«400112_j30812095382008_3_alg».proof.Proof.HostTail
import proofs.«400112_j30812095382008_3_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.Pool.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Pool.Loop

variable (m : (ℓ : Loc nD τ sig) → Buf (Elt Ideal) ℓ) (ρ : Dev nD → PrngReg)

/-- The four arrays the region stages, as it finds them, at their literal types. -/
abbrev idxArr (c : Dev nD) : Vec Ideal S64x256x1 .i32 := V m c main_v1
abbrev seqArr (c : Dev nD) : Vec Ideal S64x512x768 .f32 := V m c main_arg0
abbrev wArr (c : Dev nD) : Vec Ideal S128x768 .f32 := V m c main_v3
abbrev bArr (c : Dev nD) : Vec Ideal S1x128 .f32 := V m c main_v5

/-- Batch element `b`'s slab of the clipped index table, `[1, 256, 1]`. -/
def slabIdx (c : Dev nD) (b : Fin 64) : Vec Ideal S1x256x1 .i32 :=
  fun z => idxArr m c (ix3 b ⟨(z 1).val, (z 1).isLt⟩ ⟨(z 2).val, (z 2).isLt⟩)

/-- Batch element `b`'s slab of the subword rows, `[1, 512, 768]`. -/
def slabSeq (c : Dev nD) (b : Fin 64) : Vec Ideal S1x512x768 .f32 :=
  fun z => seqArr m c (ix3 b ⟨(z 1).val, (z 1).isLt⟩ ⟨(z 2).val, (z 2).isLt⟩)

/-- The region's result at `(b, w, n)`: the slab computed from batch element `b`, at `(0, w, n)`. -/
def regionAt (c : Dev nD) (b : Fin 64) (w : Fin 256) (n : Fin 128) : EReal :=
  k0_pay1 (F := Ideal) (wArr m c) (bArr m c) (slabIdx m c b) (slabSeq m c b) (ix3 (0 : Fin 1) w n)

/-- The region's whole result array. -/
def regionOut (c : Dev nD) : Vec Ideal S64x256x128 .f32 := fun i =>
  regionAt m c ⟨(i 0).val, (i 0).isLt⟩ ⟨(i 1).val, (i 1).isLt⟩ ⟨(i 2).val, (i 2).isLt⟩

/-- The printed index maps over the grid: windows 0, 1 and 4 move along axis 0 with the point, windows 2 and 3 stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Point `t`'s block of the index table holds batch elements `8t …`. -/
theorem blk0_apply (c : Dev nD) (t : Fin cfg0.N) (y : S8x256x1.Idx) (b : Fin 64) (hb : b.val = 8 * t.val + (y 0).val) :
    (iblk m c 0 t : Vec Ideal S8x256x1 .i32) y = idxArr m c (ix3 b ⟨(y 1).val, (y 1).isLt⟩ ⟨(y 2).val, (y 2).isLt⟩) := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 8 + 1 * (y 0).val = b.val; omega
  | ⟨1, _⟩ => show win0_0.index t (1 : Fin 3) * 256 + 1 * (y 1).val = (y 1).val; omega
  | ⟨2, _⟩ => show win0_0.index t (2 : Fin 3) * 1 + 1 * (y 2).val = (y 2).val; omega

/-- Point `t`'s block of the subword rows holds batch elements `8t …`. -/
theorem blk1_apply (c : Dev nD) (t : Fin cfg0.N) (y : S8x512x768.Idx) (b : Fin 64) (hb : b.val = 8 * t.val + (y 0).val) :
    (iblk m c 1 t : Vec Ideal S8x512x768 .f32) y = seqArr m c (ix3 b ⟨(y 1).val, (y 1).isLt⟩ ⟨(y 2).val, (y 2).isLt⟩) := by
  obtain ⟨-, -, -, e0, e1, e2, -⟩ := idx_facts t
  unfold iblk
  rw [View.read_apply]
  show V m c main_arg0 _ = V m c main_arg0 _
  congr 1
  funext a
  apply Fin.ext
  match a with
  | ⟨0, _⟩ => show win0_1.index t (0 : Fin 3) * 8 + 1 * (y 0).val = b.val; omega
  | ⟨1, _⟩ => show win0_1.index t (1 : Fin 3) * 512 + 1 * (y 1).val = (y 1).val; omega
  | ⟨2, _⟩ => show win0_1.index t (2 : Fin 3) * 768 + 1 * (y 2).val = (y 2).val; omega

/-- Every point's block of the padded weights is the whole array. -/
theorem blk2_eq (c : Dev nD) (t : Fin cfg0.N) : (iblk m c 2 t : Vec Ideal S128x768 .f32) = wArr m c := by
  obtain ⟨-, -, -, -, -, -, e0, e1, -⟩ := idx_facts t
  funext y
  unfold iblk
  rw [View.read_apply]
  show V m c main_v3 _ = V m c main_v3 _
  congr 1
  funext a
  apply Fin.ext
  match a with
  | ⟨0, _⟩ => show win0_2.index t (0 : Fin 2) * 128 + 1 * (y 0).val = (y 0).val; omega
  | ⟨1, _⟩ => show win0_2.index t (1 : Fin 2) * 768 + 1 * (y 1).val = (y 1).val; omega

/-- Every point's block of the padded bias is the whole array. -/
theorem blk3_eq (c : Dev nD) (t : Fin cfg0.N) : (iblk m c 3 t : Vec Ideal S1x128 .f32) = bArr m c := by
  obtain ⟨-, -, -, -, -, -, -, -, e0, e1, -⟩ := idx_facts t
  funext y
  unfold iblk
  rw [View.read_apply]
  show V m c main_v5 _ = V m c main_v5 _
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- What the body leaves at `(j, w, n)` of point `t`'s block is the region's function at batch element `8t + j`. -/
theorem point_eq (c : Dev nD) (t : Fin cfg0.N) (j : S8x256x128.Idx) (b : Fin 64) (hb : b.val = 8 * t.val + (j 0).val) :
    bodyOut (iblk m c 0 t : Vec Ideal S8x256x1 .i32) (iblk m c 1 t : Vec Ideal S8x512x768 .f32)
        (iblk m c 2 t : Vec Ideal S128x768 .f32) (iblk m c 3 t : Vec Ideal S1x128 .f32) j
      = regionAt m c b ⟨(j 1).val, (j 1).isLt⟩ ⟨(j 2).val, (j 2).isLt⟩ := by
  unfold bodyOut regionAt
  rw [blk2_eq m c t, blk3_eq m c t]
  have es : idxSlab (iblk m c 0 t : Vec Ideal S8x256x1 .i32) ⟨(j 0).val, (j 0).isLt⟩ = slabIdx m c b :=
    funext fun z => blk0_apply m c t _ b hb
  have eq : seqSlab (iblk m c 1 t : Vec Ideal S8x512x768 .f32) ⟨(j 0).val, (j 0).isLt⟩ = slabSeq m c b :=
    funext fun z => blk1_apply m c t _ b hb
  rw [es, eq]

/-- WHAT POINT `t` WRITES BACK is block `t` of the region's function. -/
theorem flushed_eq (c : Dev nD) (t : Fin cfg0.N) :
    (dats m 0 c).flushed 4 t = ((cfg0.win 4).blk t).view.read (Elt Ideal) (regionOut m c) := by
  obtain ⟨-, -, -, -, -, -, -, -, -, -, e0, e1, e2⟩ := idx_facts t
  have hN : cfg0.N = 8 := N_0
  show (cfg0.win 4).cut (grid0.coords t) ((dats m 0 c).after 4 t) = _
  rw [after0_4]
  unfold outsAt0
  rw [out_eq]
  funext j
  have h0 : (j 0).val < 8 := (j 0).isLt
  have ht : t.val < 8 := hN ▸ t.isLt
  show bodyOut (iblk m c 0 t : Vec Ideal S8x256x1 .i32) (iblk m c 1 t : Vec Ideal S8x512x768 .f32)
      (iblk m c 2 t : Vec Ideal S128x768 .f32) (iblk m c 3 t : Vec Ideal S1x128 .f32) j
    = regionOut m c (((cfg0.win 4).blk t).view.emb j)
  rw [point_eq m c t j ⟨8 * t.val + (j 0).val, by omega⟩ rfl]
  unfold regionOut
  have a0 : ((((cfg0.win 4).blk t).view.emb j) 0).val = 8 * t.val + (j 0).val := by
    show win0_4.index t (0 : Fin 3) * 8 + 1 * (j 0).val = _; omega
  have a1 : ((((cfg0.win 4).blk t).view.emb j) 1).val = (j 1).val := by
    show win0_4.index t (1 : Fin 3) * 256 + 1 * (j 1).val = _; omega
  have a2 : ((((cfg0.win 4).blk t).view.emb j) 2).val = (j 2).val := by
    show win0_4.index t (2 : Fin 3) * 128 + 1 * (j 2).val = _; omega
  congr 1 <;> exact Fin.ext (by first | exact a0.symm | exact a1.symm | exact a2.symm)

/-- An index of the result array is in point `t`'s block iff each coordinate is in the block's range on its axis. -/
theorem mem_blk (t : Fin cfg0.N) (i : S64x256x128.Idx) :
    i ∈ ((cfg0.win 4).blk t).view.set ↔ ∀ a : Fin 3, win0_4.index t a * S8x256x128.size a ≤ (i a).val ∧ (i a).val < win0_4.index t a * S8x256x128.size a + S8x256x128.size a := by
  show i ∈ ((View.whole main_v6).slice (win0_4.rect t)).set ↔ _
  rw [View.set_slice_whole, Rect.mem_set_unit]
  exact Iff.rfl

/-- The result array after the region: the region's function, everywhere (the 8 blocks tile the 64 batch elements). -/
theorem final (c : Dev nD) : (dats m 0 c).arrAt 4 cfg0.N = regionOut m c :=
  (dats m 0 c).arrAt_eq_of_cover 4 (regionOut m c) (fun t _ => flushed_eq m c t) fun i => by
    have hN : cfg0.N = 8 := N_0
    have hi0 : (i 0).val < 64 := (i 0).isLt
    have hi1 : (i 1).val < 256 := (i 1).isLt
    have hi2 : (i 2).val < 128 := (i 2).isLt
    refine ⟨⟨(i 0).val / 8, by omega⟩, flush0_4 _, ?_⟩
    obtain ⟨-, -, -, -, -, -, -, -, -, -, e0, e1, e2⟩ := idx_facts ⟨(i 0).val / 8, by omega⟩
    rw [mem_blk]
    intro a
    match a with
    | ⟨0, _⟩ => show win0_4.index _ (0 : Fin 3) * 8 ≤ (i 0).val ∧ (i 0).val < win0_4.index _ (0 : Fin 3) * 8 + 8; rw [e0]; show (i 0).val / 8 * 8 ≤ _ ∧ _ < (i 0).val / 8 * 8 + 8; omega
    | ⟨1, _⟩ => show win0_4.index _ (1 : Fin 3) * 256 ≤ (i 1).val ∧ (i 1).val < win0_4.index _ (1 : Fin 3) * 256 + 256; rw [e1]; omega
    | ⟨2, _⟩ => show win0_4.index _ (2 : Fin 3) * 128 ≤ (i 2).val ∧ (i 2).val < win0_4.index _ (2 : Fin 3) * 128 + 128; rw [e2]; omega

/-- The three host operations after the region leave, in the program's result buffer, the re-laid region result. -/
theorem tail_eq (c : Dev nD) :
    Pipeline.afterTail₀ cfgs (dats m) 0 (V0 m) [hostOps1] c main_v9 = Cert.Pool.Host.tailFn (regionOut m c) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v6)
      = regionOut m c :=
    (Pipeline.withArrays_arr spec0 launch0.win.arr_inj c _ _ 4).trans (final m c)
  rw [e]
  rfl

/-- The kernel's program, run: its result buffer ends at the re-laid region result, its arguments unchanged. -/
theorem run : θ_run defs (onTc (τ := τ) (main (F := Ideal))) ⟨m, fun _ => 0, ρ⟩ fun r => ∀ c : Dev nD,
      r.2.mem ((c.tc : Thread nD τ).loc main_v9) = Cert.Pool.Host.tailFn (regionOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The re-laid region result IS the specification's array of the four arguments: entry `(a, b, w, c)` is lane
    `3a + c` of position `(b, w)`; there the one-hot product has picked the row the (clipped) word names, the padded
    weight row `3a + c` is the weight row of `(a, c)`, the padded bias entry its bias; and a product of two extended
    reals does not depend on the order of its factors. -/
theorem tail_logits (c : Dev nD) :
    Cert.Pool.Host.tailFn (regionOut m c)
      = Cert.Pool.logits (m ((c.tc : Thread nD τ).loc main_arg0)) (m ((c.tc : Thread nD τ).loc main_arg1))
          (m ((c.tc : Thread nD τ).loc main_arg2)) (m ((c.tc : Thread nD τ).loc main_arg3)) := by
  funext i
  obtain ⟨a, b, w, cl, rfl⟩ : ∃ (a : Fin 32) (b : Fin 64) (w : Fin 256) (cl : Fin 3), i = ix4 a b w cl :=
    ⟨i 0, i 1, i 2, i 3, eq_ix4 i⟩
  rw [Cert.Pool.Host.tailFn_apply]
  show regionAt m c b w ⟨3 * a.val + cl.val, _⟩ = Cert.Pool.logit _ _ _ _ a b w cl
  unfold regionAt
  rw [Cert.Pool.Body.pay_apply (wArr m c) (bArr m c) (slabIdx m c b) (slabSeq m c b) w ⟨3 * a.val + cl.val, by omega⟩
    (Cert.Pool.row ((m ((c.tc : Thread nD τ).loc main_arg1) : IVec S64x256 32) (ix2 b w))) (Cert.Pool.Host.V_v1_apply m c b w)]
  unfold Cert.Pool.logit
  congr 1
  · refine Finset.sum_congr rfl fun d _ => ?_
    show seqArr m c (ix3 b _ d) * wArr m c (ix2 _ d) = _
    rw [show wArr m c (ix2 (⟨3 * a.val + cl.val, by omega⟩ : Fin 128) d) = _ from Cert.Pool.Host.V_v3_apply m c a cl d,
      show seqArr m c = m ((c.tc : Thread nD τ).loc main_arg0) from V_main_arg0 m c, mul_comm]
  · exact Cert.Pool.Host.V_v5_apply m c a cl

end Cert.Pool.Kernel

end
-- ==== Proof.lean ====
/-
  The certificate of a pooling-and-classification kernel against its jnp reference, over the extended reals.

  Both programs take subword rows `seq : [64, 512, 768]`, an integer table `idx : [64, 256]` of word positions,
  classifier weights `cw : [32, 3, 768]` and biases `cb : [32, 3]`, and return logits `[32, 64, 256, 3]`:
  `out[a, b, w, c] = ∑ₖ cw[a, c, k] · seq[b, idx[b, w], k] + cb[a, c]`.

  The reference gathers the row `idx[b, w]` (wrapping a negative word by 512 and answering a not-a-number pattern where
  the wrapped word is outside `[0, 511]`), then contracts with the weights. The kernel clips the word into
  `[0, 511]`, selects the row by a one-hot matrix product (`∑ₛ [idx = s] · seq[b, s, k]`: a sum with one term `1 · x`
  and 511 terms `0 · x`, which is `x` for every extended real `x`), multiplies by the weights padded from 96 to 128
  rows, and re-lays lane `3a + c` of the result into `(a, c)`. The two differ where a word is negative or at least
  512 (the kernel clips where the reference wraps or answers not-a-number), so the claim is stated, and holds, under the
  precondition that every word is in `[0, 512)`: there the wrap does nothing, the range test holds, clipping does
  nothing, and both programs compute the specification `Cert.Pool.logits` (Proof/Spec.lean), the kernel's product
  `seq · cw` and the reference's `cw · seq` being equal by commutativity. No finiteness is used.

  The kernel's frames are the generated frame certificates; its value is read off the generated frame run
  (Proof/LoopPieces.lean: what one grid point's loop leaves; Proof/Payload.lean: one trip at an index;
  Proof/HostSide.lean, Proof/HostTail.lean: the host operations around the region; Proof/KernelValue.lean: the blocks
  tile the result array, and the whole program's result is the specification). The reference's run is
  Proof/RefRun.lean with Proof/RefRead.lean; Proof/RefValue.lean reads it as the specification when every word is in range,
  which Proof/PreRange.lean decodes from the printed precondition.
-/
import proofs.«400112_j30812095382008_3_alg».proof.Defs
import proofs.«400112_j30812095382008_3_alg».proof.Proof.Gen.Kernel.Frame
import proofs.«400112_j30812095382008_3_alg».proof.Proof.Gen.KernelIdeal.Frame
import proofs.«400112_j30812095382008_3_alg».proof.Proof.Gen.ReferenceIdeal
import proofs.«400112_j30812095382008_3_alg».proof.Proof.Gen.Pre_finite_inputs
import proofs.«400112_j30812095382008_3_alg».proof.Proof.RefRun
import proofs.«400112_j30812095382008_3_alg».proof.Proof.RefRead
import proofs.«400112_j30812095382008_3_alg».proof.Proof.RefValue
import proofs.«400112_j30812095382008_3_alg».proof.Proof.PreRange
import proofs.«400112_j30812095382008_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments, with every word in range: the kernel's result buffer ends at the re-laid
    region result, the reference's at its composed term; both are the specification's logits of the arguments. -/
theorem algebraic : Cert.algebraic_KernelIdeal_ReferenceIdeal := by
  intro m ρ m' ρ' hpre hagree
  refine ⟨fun c => Cert.Pool.Host.tailFn (Cert.Pool.Kernel.regionOut m c), Cert.Pool.Kernel.run m ρ, ?_⟩
  refine (θ_run Cert.ReferenceIdeal.defs _ _).mono (fun _ h c => ⟨(h c).1.trans ?_, (h c).2⟩)
    (Cert.ReferenceIdeal.ValueP.run (F := Ideal) m' ρ')
  have hr : Cert.Pool.InRange (m ((c.tc : Thread Cert.KernelIdeal.nD Cert.KernelIdeal.τ).loc Cert.KernelIdeal.main_arg1)) :=
    Cert.Pool.Pre.inRange_of_pre _ _ _ _ (hpre c)
  refine (Cert.ReferenceIdeal.ReadP.val_main_v6_eq (F := Ideal) _ _ _ _).trans ?_
  rw [(hagree c).1, (hagree c).2.1, (hagree c).2.2.1, (hagree c).2.2.2, Cert.Pool.Ref.ref_eq_logits _ _ _ _ hr]
  exact (Cert.Pool.Kernel.tail_logits m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
